-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1500x4x64 : Shape := ⟨3, ![1500, 4, 64]⟩
abbrev S200 : Shape := ⟨1, ![200]⟩
abbrev S_ : Shape := ⟨0, ![]⟩

class Facts : Prop where
  bcast_S_S1500x4x64 : S_.BroadcastsInDim S1500x4x64 (![] : Fin 0 → Fin S1500x4x64.rank)
  reducesTo_S1500x4x64_S_d0_1_2 : S1500x4x64.ReducesTo [0, 1, 2] S_
  h_S_ : 0 < S_.numel
  bcast_S_S200 : S_.BroadcastsInDim S200 (![] : Fin 0 → Fin S200.rank)
  reducesTo_S200_S_d0 : S200.ReducesTo [0] S_

variable [Facts]

def fn_part1 {F : FTy → Type} [FloatOps F] (main_arg3 : IVec S200 32) (main_v15 : IVec S_ 1) (main_c_5 : IVec S_ 32) : IVec S_ 1 :=
  let main_v16 : IVec S200 32 := broadcastInDim S200 ![] bcast_S_S200 main_c_5
  let main_v17 : IVec S200 1 := cmpi .sge main_arg3 main_v16
  let main_c_6 : IVec S_ 32 := constantI S_ 32 1500#32
  let main_v18 : IVec S200 32 := broadcastInDim S200 ![] bcast_S_S200 main_c_6
  let main_v19 : IVec S200 1 := cmpi .slt main_arg3 main_v18
  let main_v20 : IVec S200 1 := andi main_v17 main_v19
  let main_c_7 : IVec S_ 1 := constantI S_ 1 1#1
  let main_v21 : IVec S_ 1 := (fun x v => Host.reduce IntOp.andi x v reducesTo_S200_S_d0 h_S_) main_v20 main_c_7
  let main_v22 : IVec S_ 1 := andi main_v15 main_v21
  main_v22

def fn {F : FTy → Type} [FloatOps F] (main_arg0 : FVec F S1500x4x64 .f32) (main_arg1 : FVec F S1500x4x64 .f32) (main_arg2 : IVec S200 32) (main_arg3 : IVec S200 32) : IVec S_ 1 :=
  let main_v0 : FVec F S1500x4x64 .f32 := Host.absf main_arg0
  let main_cst : FVec F S_ .f32 := constant S_ .f32 0x7F800000#32
  let main_v1 : FVec F S1500x4x64 .f32 := broadcastInDim S1500x4x64 ![] bcast_S_S1500x4x64 main_cst
  let main_v2 : IVec S1500x4x64 1 := cmpf .olt main_v0 main_v1
  let main_c : IVec S_ 1 := constantI S_ 1 1#1
  let main_v3 : IVec S_ 1 := (fun x v => Host.reduce IntOp.andi x v reducesTo_S1500x4x64_S_d0_1_2 h_S_) main_v2 main_c
  let main_v4 : FVec F S1500x4x64 .f32 := Host.absf main_arg1
  let main_cst_0 : FVec F S_ .f32 := constant S_ .f32 0x7F800000#32
  let main_v5 : FVec F S1500x4x64 .f32 := broadcastInDim S1500x4x64 ![] bcast_S_S1500x4x64 main_cst_0
  let main_v6 : IVec S1500x4x64 1 := cmpf .olt main_v4 main_v5
  let main_c_1 : IVec S_ 1 := constantI S_ 1 1#1
  let main_v7 : IVec S_ 1 := (fun x v => Host.reduce IntOp.andi x v reducesTo_S1500x4x64_S_d0_1_2 h_S_) main_v6 main_c_1
  let main_v8 : IVec S_ 1 := andi main_v3 main_v7
  let main_c_2 : IVec S_ 32 := constantI S_ 32 4294965796#32
  let main_v9 : IVec S200 32 := broadcastInDim S200 ![] bcast_S_S200 main_c_2
  let main_v10 : IVec S200 1 := cmpi .sge main_arg2 main_v9
  let main_c_3 : IVec S_ 32 := constantI S_ 32 1500#32
  let main_v11 : IVec S200 32 := broadcastInDim S200 ![] bcast_S_S200 main_c_3
  let main_v12 : IVec S200 1 := cmpi .slt main_arg2 main_v11
  let main_v13 : IVec S200 1 := andi main_v10 main_v12
  let main_c_4 : IVec S_ 1 := constantI S_ 1 1#1
  let main_v14 : IVec S_ 1 := (fun x v => Host.reduce IntOp.andi x v reducesTo_S200_S_d0 h_S_) main_v13 main_c_4
  let main_v15 : IVec S_ 1 := andi main_v8 main_v14
  let main_c_5 : IVec S_ 32 := constantI S_ 32 4294965796#32
  fn_part1 (F := F) main_arg3 main_v15 main_c_5
-- ==== Kernel.lean ====
abbrev S1500x4x64 : Shape := ⟨3, ![1500, 4, 64]⟩
abbrev S200 : Shape := ⟨1, ![200]⟩
abbrev S4 : Shape := ⟨1, ![4]⟩
abbrev S_ : Shape := ⟨0, ![]⟩
abbrev S200x1 : Shape := ⟨2, ![200, 1]⟩
abbrev S1 : Shape := ⟨1, ![1]⟩
abbrev S1x1 : Shape := ⟨2, ![1, 1]⟩
abbrev S200x4x64 : Shape := ⟨3, ![200, 4, 64]⟩
abbrev S1500x256 : Shape := ⟨2, ![1500, 256]⟩
abbrev S1536x256 : Shape := ⟨2, ![1536, 256]⟩
abbrev S256 : Shape := ⟨1, ![256]⟩
abbrev S96x256 : Shape := ⟨2, ![96, 256]⟩
abbrev S96x1x256 : Shape := ⟨3, ![96, 1, 256]⟩
abbrev S1x96x256 : Shape := ⟨3, ![1, 96, 256]⟩
abbrev S96x96x256 : Shape := ⟨3, ![96, 96, 256]⟩
abbrev S4x64 : Shape := ⟨2, ![4, 64]⟩

abbrev nBuf : Space → Nat
  | .hbm => 100
  | .vmem => 5
  | .smem => 0
  | _ => 0

abbrev bufTy : (tb : Table) → Fin (tcTables nBuf tb) → BufTy
  | .hbm, ⟨0, _⟩ => ⟨S1500x4x64, .f32⟩
  | .hbm, ⟨1, _⟩ => ⟨S1500x4x64, .f32⟩
  | .hbm, ⟨2, _⟩ => ⟨S200, .i32⟩
  | .hbm, ⟨3, _⟩ => ⟨S200, .i32⟩
  | .hbm, ⟨4, _⟩ => ⟨S4, .f32⟩
  | .hbm, ⟨5, _⟩ => ⟨S_, .i32⟩
  | .hbm, ⟨6, _⟩ => ⟨S200, .i32⟩
  | .hbm, ⟨7, _⟩ => ⟨S200, .i1⟩
  | .hbm, ⟨8, _⟩ => ⟨S_, .i32⟩
  | .hbm, ⟨9, _⟩ => ⟨S200, .i32⟩
  | .hbm, ⟨10, _⟩ => ⟨S200, .i32⟩
  | .hbm, ⟨11, _⟩ => ⟨S200, .i32⟩
  | .hbm, ⟨12, _⟩ => ⟨S200x1, .i32⟩
  | .hbm, ⟨13, _⟩ => ⟨S1, .i32⟩
  | .hbm, ⟨14, _⟩ => ⟨S_, .i32⟩
  | .hbm, ⟨15, _⟩ => ⟨S200x1, .i32⟩
  | .hbm, ⟨16, _⟩ => ⟨S200x1, .i1⟩
  | .hbm, ⟨17, _⟩ => ⟨S1x1, .i32⟩
  | .hbm, ⟨18, _⟩ => ⟨S200x1, .i32⟩
  | .hbm, ⟨19, _⟩ => ⟨S200x1, .i1⟩
  | .hbm, ⟨20, _⟩ => ⟨S200x1, .i1⟩
  | .hbm, ⟨21, _⟩ => ⟨S_, .i1⟩
  | .hbm, ⟨22, _⟩ => ⟨S200, .i1⟩
  | .hbm, ⟨23, _⟩ => ⟨S200x4x64, .f32⟩
  | .hbm, ⟨24, _⟩ => ⟨S200x4x64, .i1⟩
  | .hbm, ⟨25, _⟩ => ⟨S_, .f32⟩
  | .hbm, ⟨26, _⟩ => ⟨S200x4x64, .f32⟩
  | .hbm, ⟨27, _⟩ => ⟨S200x4x64, .f32⟩
  | .hbm, ⟨28, _⟩ => ⟨S_, .i32⟩
  | .hbm, ⟨29, _⟩ => ⟨S200, .i32⟩
  | .hbm, ⟨30, _⟩ => ⟨S200, .i1⟩
  | .hbm, ⟨31, _⟩ => ⟨S_, .i32⟩
  | .hbm, ⟨32, _⟩ => ⟨S200, .i32⟩
  | .hbm, ⟨33, _⟩ => ⟨S200, .i32⟩
  | .hbm, ⟨34, _⟩ => ⟨S200, .i32⟩
  | .hbm, ⟨35, _⟩ => ⟨S200x1, .i32⟩
  | .hbm, ⟨36, _⟩ => ⟨S1, .i32⟩
  | .hbm, ⟨37, _⟩ => ⟨S_, .i32⟩
  | .hbm, ⟨38, _⟩ => ⟨S200x1, .i32⟩
  | .hbm, ⟨39, _⟩ => ⟨S200x1, .i1⟩
  | .hbm, ⟨40, _⟩ => ⟨S1x1, .i32⟩
  | .hbm, ⟨41, _⟩ => ⟨S200x1, .i32⟩
  | .hbm, ⟨42, _⟩ => ⟨S200x1, .i1⟩
  | .hbm, ⟨43, _⟩ => ⟨S200x1, .i1⟩
  | .hbm, ⟨44, _⟩ => ⟨S_, .i1⟩
  | .hbm, ⟨45, _⟩ => ⟨S200, .i1⟩
  | .hbm, ⟨46, _⟩ => ⟨S200x4x64, .f32⟩
  | .hbm, ⟨47, _⟩ => ⟨S200x4x64, .i1⟩
  | .hbm, ⟨48, _⟩ => ⟨S_, .f32⟩
  | .hbm, ⟨49, _⟩ => ⟨S200x4x64, .f32⟩
  | .hbm, ⟨50, _⟩ => ⟨S200x4x64, .f32⟩
  | .hbm, ⟨51, _⟩ => ⟨S200x4x64, .f32⟩
  | .hbm, ⟨52, _⟩ => ⟨S200x4x64, .f32⟩
  | .hbm, ⟨53, _⟩ => ⟨S_, .f32⟩
  | .hbm, ⟨54, _⟩ => ⟨S4, .f32⟩
  | .hbm, ⟨55, _⟩ => ⟨S1500x256, .f32⟩
  | .hbm, ⟨56, _⟩ => ⟨S1500x256, .f32⟩
  | .hbm, ⟨57, _⟩ => ⟨S_, .i32⟩
  | .hbm, ⟨58, _⟩ => ⟨S_, .f32⟩
  | .hbm, ⟨59, _⟩ => ⟨S1536x256, .f32⟩
  | .hbm, ⟨60, _⟩ => ⟨S_, .i32⟩
  | .hbm, ⟨61, _⟩ => ⟨S_, .f32⟩
  | .hbm, ⟨62, _⟩ => ⟨S1536x256, .f32⟩
  | .hbm, ⟨63, _⟩ => ⟨S256, .f32⟩
  | .hbm, ⟨64, _⟩ => ⟨S1500x256, .f32⟩
  | .hbm, ⟨65, _⟩ => ⟨S_, .f32⟩
  | .hbm, ⟨66, _⟩ => ⟨S256, .f32⟩
  | .hbm, ⟨67, _⟩ => ⟨S_, .f32⟩
  | .hbm, ⟨68, _⟩ => ⟨S256, .f32⟩
  | .hbm, ⟨69, _⟩ => ⟨S256, .f32⟩
  | .hbm, ⟨70, _⟩ => ⟨S1500x256, .f32⟩
  | .hbm, ⟨71, _⟩ => ⟨S_, .f32⟩
  | .hbm, ⟨72, _⟩ => ⟨S256, .f32⟩
  | .hbm, ⟨73, _⟩ => ⟨S_, .f32⟩
  | .hbm, ⟨74, _⟩ => ⟨S256, .f32⟩
  | .hbm, ⟨75, _⟩ => ⟨S256, .f32⟩
  | .hbm, ⟨76, _⟩ => ⟨S256, .f32⟩
  | .hbm, ⟨77, _⟩ => ⟨S256, .f32⟩
  | .hbm, ⟨78, _⟩ => ⟨S4x64, .f32⟩
  | .hbm, ⟨79, _⟩ => ⟨S_, .f32⟩
  | .hbm, ⟨80, _⟩ => ⟨S4, .f32⟩
  | .hbm, ⟨81, _⟩ => ⟨S4, .f32⟩
  | .hbm, ⟨82, _⟩ => ⟨S_, .f32⟩
  | .hbm, ⟨83, _⟩ => ⟨S4, .f32⟩
  | .hbm, ⟨84, _⟩ => ⟨S4, .f32⟩
  | .hbm, ⟨85, _⟩ => ⟨S_, .f32⟩
  | .hbm, ⟨86, _⟩ => ⟨S4, .f32⟩
  | .hbm, ⟨87, _⟩ => ⟨S4, .f32⟩
  | .hbm, ⟨88, _⟩ => ⟨S_, .f32⟩
  | .hbm, ⟨89, _⟩ => ⟨S4, .f32⟩
  | .hbm, ⟨90, _⟩ => ⟨S4, .f32⟩
  | .hbm, ⟨91, _⟩ => ⟨S4, .f32⟩
  | .hbm, ⟨92, _⟩ => ⟨S4, .f32⟩
  | .hbm, ⟨93, _⟩ => ⟨S_, .f32⟩
  | .hbm, ⟨94, _⟩ => ⟨S4, .f32⟩
  | .hbm, ⟨95, _⟩ => ⟨S4, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .local _ .vmem, ⟨0, _⟩ => ⟨S96x256, .f32⟩
  | .local _ .vmem, ⟨1, _⟩ => ⟨S96x256, .f32⟩
  | .local _ .vmem, ⟨2, _⟩ => ⟨S96x256, .f32⟩
  | .local _ .vmem, ⟨3, _⟩ => ⟨S96x256, .f32⟩
  | .local _ .vmem, ⟨4, _⟩ => ⟨S256, .f32⟩
  | _, _ => ⟨S1500x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v1 : Ref sig .tc := ⟨.hbm, 50, rfl⟩
abbrev main_v2 : Ref sig .tc := ⟨.hbm, 51, rfl⟩
abbrev main_v3 : Ref sig .tc := ⟨.hbm, 52, rfl⟩
abbrev main_cst_0 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩
abbrev main_c : Ref sig .tc := ⟨.hbm, 57, rfl⟩
abbrev main_call2_v0 : Ref sig .tc := ⟨.hbm, 58, rfl⟩
abbrev main_v7 : Ref sig .tc := ⟨.hbm, 59, rfl⟩
abbrev main_c_1 : Ref sig .tc := ⟨.hbm, 60, rfl⟩
abbrev main_call3_v0 : Ref sig .tc := ⟨.hbm, 61, rfl⟩
abbrev main_v8 : Ref sig .tc := ⟨.hbm, 62, rfl⟩
abbrev main_v9 : Ref sig .tc := ⟨.hbm, 63, rfl⟩
abbrev main_v10 : Ref sig .tc := ⟨.hbm, 64, rfl⟩
abbrev main_cst_2 : Ref sig .tc := ⟨.hbm, 65, rfl⟩
abbrev main_v11 : Ref sig .tc := ⟨.hbm, 66, rfl⟩
abbrev main_cst_3 : Ref sig .tc := ⟨.hbm, 67, rfl⟩
abbrev main_v12 : Ref sig .tc := ⟨.hbm, 68, rfl⟩
abbrev main_v13 : Ref sig .tc := ⟨.hbm, 69, rfl⟩
abbrev main_v14 : Ref sig .tc := ⟨.hbm, 70, rfl⟩
abbrev main_cst_4 : Ref sig .tc := ⟨.hbm, 71, rfl⟩
abbrev main_v15 : Ref sig .tc := ⟨.hbm, 72, rfl⟩
abbrev main_cst_5 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_cst_6 : Ref sig .tc := ⟨.hbm, 79, rfl⟩
abbrev main_v21 : Ref sig .tc := ⟨.hbm, 80, rfl⟩
abbrev main_v22 : Ref sig .tc := ⟨.hbm, 81, rfl⟩
abbrev main_cst_7 : Ref sig .tc := ⟨.hbm, 82, rfl⟩
abbrev main_v23 : Ref sig .tc := ⟨.hbm, 83, rfl⟩
abbrev main_v24 : Ref sig .tc := ⟨.hbm, 84, rfl⟩
abbrev main_cst_8 : Ref sig .tc := ⟨.hbm, 85, rfl⟩
abbrev main_v25 : Ref sig .tc := ⟨.hbm, 86, rfl⟩
abbrev main_v26 : Ref sig .tc := ⟨.hbm, 87, rfl⟩
abbrev main_cst_9 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_cst_10 : Ref sig .tc := ⟨.hbm, 93, rfl⟩
abbrev main_v31 : Ref sig .tc := ⟨.hbm, 94, rfl⟩
abbrev main_v32 : Ref sig .tc := ⟨.hbm, 95, rfl⟩
abbrev main_cst_11 : Ref sig .tc := ⟨.hbm, 96, rfl⟩
abbrev main_v33 : Ref sig .tc := ⟨.hbm, 97, rfl⟩
abbrev main_cst_12 : Ref sig .tc := ⟨.hbm, 98, rfl⟩
abbrev main_v34 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

abbrev stage0_0 : Fin 2 → Memref sig .tc .vmem S96x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S96x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

class Facts₀ : Prop where
  bcast_S_S200 : S_.BroadcastsInDim S200 (![] : Fin 0 → Fin S200.rank)
  bcast_S200_S200x1_0 : S200.BroadcastsInDim S200x1 (![0] : Fin 1 → Fin S200x1.rank)
  bcast_S_S200x1 : S_.BroadcastsInDim S200x1 (![] : Fin 0 → Fin S200x1.rank)
  bcast_S1_S1x1_1 : S1.BroadcastsInDim S1x1 (![1] : Fin 1 → Fin S1x1.rank)
  bcast_S1x1_S200x1_0_1 : S1x1.BroadcastsInDim S200x1 (![0, 1] : Fin 2 → Fin S200x1.rank)
  reducesTo_S200x1_S200_d1 : S200x1.ReducesTo [1] S200
  h_S_ : 0 < S_.numel
  bcast_S200_S200x4x64_0 : S200.BroadcastsInDim S200x4x64 (![0] : Fin 1 → Fin S200x4x64.rank)
  bcast_S_S200x4x64 : S_.BroadcastsInDim S200x4x64 (![] : Fin 0 → Fin S200x4x64.rank)
  reducesTo_S200x4x64_S4_d0_2 : S200x4x64.ReducesTo [0, 2] S4
  shapeCasts_S1500x4x64_S1500x256 : S1500x4x64.ShapeCasts S1500x256
  pads_S1500x256_S1536x256_0360_000 : S1500x256.Pads (![0, 0] : Fin 2 → Nat) ![36, 0] ![0, 0] S1536x256
  inb_S256_S256_0 : ∀ a, (![0] : Fin 1 → Nat) a + S256.size a ≤ S256.size a
  h_S256 : 0 < S256.numel
  inb_S96x256_S96x256_0_0 : ∀ a, (![0, 0] : Fin 2 → Nat) a + S96x256.size a ≤ S96x256.size a
  h_S96x256 : 0 < S96x256.numel
  shapeCasts_S96x256_S96x256 : S96x256.ShapeCasts S96x256
  shapeCasts_S96x256_S96x1x256 : S96x256.ShapeCasts S96x1x256
  shapeCasts_S96x256_S1x96x256 : S96x256.ShapeCasts S1x96x256
  broadcasts_S96x1x256_S96x96x256 : S96x1x256.Broadcasts S96x96x256
  broadcasts_S1x96x256_S96x96x256 : S1x96x256.Broadcasts S96x96x256
  reduces_S96x96x256_S96x256 : S96x96x256.Reduces [0] S96x256
  reduces_S96x256_S256 : S96x256.Reduces [0] S256
  shapeCasts_S256_S256 : S256.ShapeCasts S256
  reducesTo_S1500x256_S256_d0 : S1500x256.ReducesTo [0] S256
  bcast_S_S256 : S_.BroadcastsInDim S256 (![] : Fin 0 → Fin S256.rank)
  shapeCasts_S256_S4x64 : S256.ShapeCasts S4x64
  reducesTo_S4x64_S4_d1 : S4x64.ReducesTo [1] S4
  bcast_S_S4 : S_.BroadcastsInDim S4 (![] : Fin 0 → Fin S4.rank)
  reducesTo_S4_S_d0 : S4.ReducesTo [0] S_
  gather_S1500x4x64_S200x1_S200x4x64_12_0_n_n_0_1_1464_wf : GatherDims.WF S1500x4x64 S200x1 S200x4x64 [1, 2] [0] [] [0] [] 1 ![1, 4, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S96x256.size a ≤ S1536x256.size a
  hwx0_0 : ∀ i : grid0.Coords, EltTy.bits .f32 = 32 ∨ (Rect.block (s := S1536x256) S96x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S96x256.size a ≤ S1536x256.size a
  hwx0_1 : ∀ i : grid0.Coords, EltTy.bits .f32 = 32 ∨ (Rect.block (s := S1536x256) S96x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)

variable [Facts₀]

def gather_S1500x4x64_S200x1_S200x4x64_12_0_n_n_0_1_1464 : GatherDims S1500x4x64 S200x1 S200x4x64 where
  offsetDims := [1, 2]
  collapsedSliceDims := [0]
  operandBatchingDims := []
  startIndicesBatchingDims := []
  startIndexMap := [0]
  indexVectorDim := 1
  sliceSizes := ![1, 4, 64]
  wf := gather_S1500x4x64_S200x1_S200x4x64_12_0_n_n_0_1_1464_wf

abbrev win0_0 : Pipeline.Window sig grid0 :=
  Pipeline.Window.ofSpec (Memref.whole main_v7) S96x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S96x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S256.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1500x4x64 : Shape := ⟨3, ![1500, 4, 64]⟩
abbrev S200 : Shape := ⟨1, ![200]⟩
abbrev S4 : Shape := ⟨1, ![4]⟩
abbrev S_ : Shape := ⟨0, ![]⟩
abbrev S200x1 : Shape := ⟨2, ![200, 1]⟩
abbrev S200x4x64 : Shape := ⟨3, ![200, 4, 64]⟩
abbrev S1500x1x64 : Shape := ⟨3, ![1500, 1, 64]⟩
abbrev S1500x64 : Shape := ⟨2, ![1500, 64]⟩
abbrev S1x1500x64 : Shape := ⟨3, ![1, 1500, 64]⟩
abbrev S1500x1500x64 : Shape := ⟨3, ![1500, 1500, 64]⟩
abbrev S1 : Shape := ⟨1, ![1]⟩

abbrev nBuf : Space → Nat
  | .hbm => 99
  | .vmem => 0
  | .smem => 0
  | _ => 0

abbrev bufTy : (tb : Table) → Fin (tcTables nBuf tb) → BufTy
  | .hbm, ⟨0, _⟩ => ⟨S1500x4x64, .f32⟩
  | .hbm, ⟨1, _⟩ => ⟨S1500x4x64, .f32⟩
  | .hbm, ⟨2, _⟩ => ⟨S200, .i32⟩
  | .hbm, ⟨3, _⟩ => ⟨S200, .i32⟩
  | .hbm, ⟨4, _⟩ => ⟨S4, .f32⟩
  | .hbm, ⟨5, _⟩ => ⟨S_, .i32⟩
  | .hbm, ⟨6, _⟩ => ⟨S200, .i32⟩
  | .hbm, ⟨7, _⟩ => ⟨S200, .i1⟩
  | .hbm, ⟨8, _⟩ => ⟨S_, .i32⟩
  | .hbm, ⟨9, _⟩ => ⟨S200, .i32⟩
  | .hbm, ⟨10, _⟩ => ⟨S200, .i32⟩
  | .hbm, ⟨11, _⟩ => ⟨S200, .i32⟩
  | .hbm, ⟨12, _⟩ => ⟨S200x1, .i32⟩
  | .hbm, ⟨13, _⟩ => ⟨S200x4x64, .f32⟩
  | .hbm, ⟨14, _⟩ => ⟨S_, .i32⟩
  | .hbm, ⟨15, _⟩ => ⟨S200, .i32⟩
  | .hbm, ⟨16, _⟩ => ⟨S200, .i1⟩
  | .hbm, ⟨17, _⟩ => ⟨S_, .i32⟩
  | .hbm, ⟨18, _⟩ => ⟨S200, .i32⟩
  | .hbm, ⟨19, _⟩ => ⟨S200, .i32⟩
  | .hbm, ⟨20, _⟩ => ⟨S200, .i32⟩
  | .hbm, ⟨21, _⟩ => ⟨S200x1, .i32⟩
  | .hbm, ⟨22, _⟩ => ⟨S200x4x64, .f32⟩
  | .hbm, ⟨23, _⟩ => ⟨S200x4x64, .f32⟩
  | .hbm, ⟨24, _⟩ => ⟨S200x4x64, .f32⟩
  | .hbm, ⟨25, _⟩ => ⟨S_, .f32⟩
  | .hbm, ⟨26, _⟩ => ⟨S4, .f32⟩
  | .hbm, ⟨27, _⟩ => ⟨S1500x1x64, .f32⟩
  | .hbm, ⟨28, _⟩ => ⟨S1500x64, .f32⟩
  | .hbm, ⟨29, _⟩ => ⟨S1500x1x64, .f32⟩
  | .hbm, ⟨30, _⟩ => ⟨S1500x1x64, .f32⟩
  | .hbm, ⟨31, _⟩ => ⟨S1500x64, .f32⟩
  | .hbm, ⟨32, _⟩ => ⟨S1x1500x64, .f32⟩
  | .hbm, ⟨33, _⟩ => ⟨S1500x1500x64, .f32⟩
  | .hbm, ⟨34, _⟩ => ⟨S1500x1500x64, .f32⟩
  | .hbm, ⟨35, _⟩ => ⟨S1500x1500x64, .f32⟩
  | .hbm, ⟨36, _⟩ => ⟨S1500x1500x64, .f32⟩
  | .hbm, ⟨37, _⟩ => ⟨S_, .f32⟩
  | .hbm, ⟨38, _⟩ => ⟨S_, .f32⟩
  | .hbm, ⟨39, _⟩ => ⟨S1500x1x64, .f32⟩
  | .hbm, ⟨40, _⟩ => ⟨S1500x64, .f32⟩
  | .hbm, ⟨41, _⟩ => ⟨S1500x1x64, .f32⟩
  | .hbm, ⟨42, _⟩ => ⟨S1500x1x64, .f32⟩
  | .hbm, ⟨43, _⟩ => ⟨S1500x64, .f32⟩
  | .hbm, ⟨44, _⟩ => ⟨S1x1500x64, .f32⟩
  | .hbm, ⟨45, _⟩ => ⟨S1500x1500x64, .f32⟩
  | .hbm, ⟨46, _⟩ => ⟨S1500x1500x64, .f32⟩
  | .hbm, ⟨47, _⟩ => ⟨S1500x1500x64, .f32⟩
  | .hbm, ⟨48, _⟩ => ⟨S1500x1500x64, .f32⟩
  | .hbm, ⟨49, _⟩ => ⟨S_, .f32⟩
  | .hbm, ⟨50, _⟩ => ⟨S_, .f32⟩
  | .hbm, ⟨51, _⟩ => ⟨S1500x1x64, .f32⟩
  | .hbm, ⟨52, _⟩ => ⟨S1500x64, .f32⟩
  | .hbm, ⟨53, _⟩ => ⟨S1500x1x64, .f32⟩
  | .hbm, ⟨54, _⟩ => ⟨S1500x1x64, .f32⟩
  | .hbm, ⟨55, _⟩ => ⟨S1500x64, .f32⟩
  | .hbm, ⟨56, _⟩ => ⟨S1x1500x64, .f32⟩
  | .hbm, ⟨57, _⟩ => ⟨S1500x1500x64, .f32⟩
  | .hbm, ⟨58, _⟩ => ⟨S1500x1500x64, .f32⟩
  | .hbm, ⟨59, _⟩ => ⟨S1500x1500x64, .f32⟩
  | .hbm, ⟨60, _⟩ => ⟨S1500x1500x64, .f32⟩
  | .hbm, ⟨61, _⟩ => ⟨S_, .f32⟩
  | .hbm, ⟨62, _⟩ => ⟨S_, .f32⟩
  | .hbm, ⟨63, _⟩ => ⟨S1500x1x64, .f32⟩
  | .hbm, ⟨64, _⟩ => ⟨S1500x64, .f32⟩
  | .hbm, ⟨65, _⟩ => ⟨S1500x1x64, .f32⟩
  | .hbm, ⟨66, _⟩ => ⟨S1500x1x64, .f32⟩
  | .hbm, ⟨67, _⟩ => ⟨S1500x64, .f32⟩
  | .hbm, ⟨68, _⟩ => ⟨S1x1500x64, .f32⟩
  | .hbm, ⟨69, _⟩ => ⟨S1500x1500x64, .f32⟩
  | .hbm, ⟨70, _⟩ => ⟨S1500x1500x64, .f32⟩
  | .hbm, ⟨71, _⟩ => ⟨S1500x1500x64, .f32⟩
  | .hbm, ⟨72, _⟩ => ⟨S1500x1500x64, .f32⟩
  | .hbm, ⟨73, _⟩ => ⟨S_, .f32⟩
  | .hbm, ⟨74, _⟩ => ⟨S_, .f32⟩
  | .hbm, ⟨75, _⟩ => ⟨S1, .f32⟩
  | .hbm, ⟨76, _⟩ => ⟨S1, .f32⟩
  | .hbm, ⟨77, _⟩ => ⟨S1, .f32⟩
  | .hbm, ⟨78, _⟩ => ⟨S1, .f32⟩
  | .hbm, ⟨79, _⟩ => ⟨S4, .f32⟩
  | .hbm, ⟨80, _⟩ => ⟨S4, .f32⟩
  | .hbm, ⟨81, _⟩ => ⟨S_, .f32⟩
  | .hbm, ⟨82, _⟩ => ⟨S4, .f32⟩
  | .hbm, ⟨83, _⟩ => ⟨S4, .f32⟩
  | .hbm, ⟨84, _⟩ => ⟨S_, .f32⟩
  | .hbm, ⟨85, _⟩ => ⟨S4, .f32⟩
  | .hbm, ⟨86, _⟩ => ⟨S4, .f32⟩
  | .hbm, ⟨87, _⟩ => ⟨S_, .f32⟩
  | .hbm, ⟨88, _⟩ => ⟨S4, .f32⟩
  | .hbm, ⟨89, _⟩ => ⟨S4, .f32⟩
  | .hbm, ⟨90, _⟩ => ⟨S4, .f32⟩
  | .hbm, ⟨91, _⟩ => ⟨S4, .f32⟩
  | .hbm, ⟨92, _⟩ => ⟨S_, .f32⟩
  | .hbm, ⟨93, _⟩ => ⟨S4, .f32⟩
  | .hbm, ⟨94, _⟩ => ⟨S4, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | _, _ => ⟨S1500x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_6 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_7 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_cst_8 : Ref sig .tc := ⟨.hbm, 81, rfl⟩
abbrev main_v67 : Ref sig .tc := ⟨.hbm, 82, rfl⟩
abbrev main_v68 : Ref sig .tc := ⟨.hbm, 83, rfl⟩
abbrev main_cst_9 : Ref sig .tc := ⟨.hbm, 84, rfl⟩
abbrev main_v69 : Ref sig .tc := ⟨.hbm, 85, rfl⟩
abbrev main_v70 : Ref sig .tc := ⟨.hbm, 86, rfl⟩
abbrev main_cst_10 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_cst_11 : Ref sig .tc := ⟨.hbm, 92, rfl⟩
abbrev main_v75 : Ref sig .tc := ⟨.hbm, 93, rfl⟩
abbrev main_v76 : Ref sig .tc := ⟨.hbm, 94, rfl⟩
abbrev main_cst_12 : Ref sig .tc := ⟨.hbm, 95, rfl⟩
abbrev main_v77 : Ref sig .tc := ⟨.hbm, 96, rfl⟩
abbrev main_cst_13 : Ref sig .tc := ⟨.hbm, 97, rfl⟩
abbrev main_v78 : Ref sig .tc := ⟨.hbm, 98, rfl⟩

abbrev nD : Nat := 1
abbrev τ : Topo := Topo.v7x

variable {F : FTy → Type} [FloatOps F]

class Facts₀ : Prop where
  bcast_S_S200 : S_.BroadcastsInDim S200 (![] : Fin 0 → Fin S200.rank)
  bcast_S200_S200x1_0 : S200.BroadcastsInDim S200x1 (![0] : Fin 1 → Fin S200x1.rank)
  reducesTo_S200x4x64_S4_d0_2 : S200x4x64.ReducesTo [0, 2] S4
  h_S_ : 0 < S_.numel
  slices_S1500x4x64_S1500x1x64_0_0_0 : S1500x4x64.Slices ![0, 0, 0] S1500x1x64
  shapeCasts_S1500x1x64_S1500x64 : S1500x1x64.ShapeCasts S1500x64
  bcast_S1500x64_S1500x1x64_0_2 : S1500x64.BroadcastsInDim S1500x1x64 (![0, 2] : Fin 2 → Fin S1500x1x64.rank)
  bcast_S1500x64_S1x1500x64_1_2 : S1500x64.BroadcastsInDim S1x1500x64 (![1, 2] : Fin 2 → Fin S1x1500x64.rank)
  bcast_S1500x1x64_S1500x1500x64_0_1_2 : S1500x1x64.BroadcastsInDim S1500x1500x64 (![0, 1, 2] : Fin 3 → Fin S1500x1500x64.rank)
  bcast_S1x1500x64_S1500x1500x64_0_1_2 : S1x1500x64.BroadcastsInDim S1500x1500x64 (![0, 1, 2] : Fin 3 → Fin S1500x1500x64.rank)
  reducesTo_S1500x1500x64_S_d0_1_2 : S1500x1500x64.ReducesTo [0, 1, 2] S_
  slices_S1500x4x64_S1500x1x64_0_1_0 : S1500x4x64.Slices ![0, 1, 0] S1500x1x64
  slices_S1500x4x64_S1500x1x64_0_2_0 : S1500x4x64.Slices ![0, 2, 0] S1500x1x64
  slices_S1500x4x64_S1500x1x64_0_3_0 : S1500x4x64.Slices ![0, 3, 0] S1500x1x64
  bcast_S_S1 : S_.BroadcastsInDim S1 (![] : Fin 0 → Fin S1.rank)
  concatenates_S1_S1_S1_S1_S4_d0 : Shape.Concatenates [S1, S1, S1, S1] S4 0
  bcast_S_S4 : S_.BroadcastsInDim S4 (![] : Fin 0 → Fin S4.rank)
  reducesTo_S4_S_d0 : S4.ReducesTo [0] S_
  gather_S1500x4x64_S200x1_S200x4x64_12_0_n_n_0_1_1464_wf : GatherDims.WF S1500x4x64 S200x1 S200x4x64 [1, 2] [0] [] [0] [] 1 ![1, 4, 64]

variable [Facts₀]

def gather_S1500x4x64_S200x1_S200x4x64_12_0_n_n_0_1_1464 : GatherDims S1500x4x64 S200x1 S200x4x64 where
  offsetDims := [1, 2]
  collapsedSliceDims := [0]
  operandBatchingDims := []
  startIndicesBatchingDims := []
  startIndexMap := [0]
  indexVectorDim := 1
  sliceSizes := ![1, 4, 64]
  wf := gather_S1500x4x64_S200x1_S200x4x64_12_0_n_n_0_1_1464_wf

class Facts : Prop extends Facts₀ where

variable [Facts]
-- ==== Proof.KerHost.lean ====
/-
  What the host operations before the kernel launch leave in the buffers the launch and the closing lines
  read: each table flattened to [1500, 256]; that padded with 36 zero rows to [1536, 256]; the anchor-pair
  sums; the per-type weights.  The anchor rows are taken with a range test: a row whose (wrapped) index is
  outside [0, 1499] is replaced by a filler word.
-/
import proofs.«404473_j75007308858097_3_alg».proof.Proof.Gen.KernelIdeal.Frame
import Idealize.ShloMosaic.Lib.StableHlo.Run

noncomputable section

namespace Cert.PairL1.Ker

open Idealize.ShloMosaic Idealize.ShloMosaic.TcCoe Idealize.SL.Sem
open Cert.KernelIdeal Cert.KernelIdeal.Gen

variable {F : FTy → Type} [FloatOps F]

/-- A table [1500, 4, 64] flattened to [1500, 256]. -/
def flat (x : FVec F S1500x4x64 .f32) : FVec F S1500x256 .f32 :=
  shapeCast S1500x256 x shapeCasts_S1500x4x64_S1500x256

/-- The flattened table with 36 rows of the converted integer 0 appended. -/
def flatPad (x : FVec F S1500x4x64 .f32) : FVec F S1536x256 .f32 :=
  pad S1536x256 ![0, 0] ![36, 0] ![0, 0] (flat x) (sitofp (F := F) .f32 (constantI S_ 32 0#32))
    pads_S1500x256_S1536x256_0360_000 h_S_

/-- The anchor indices wrapped (a negative one has 1500 added) and laid out as a column. -/
def col (idx : IVec S200 32) : IVec S200x1 32 :=
  broadcastInDim S200x1 ![0] bcast_S200_S200x1_0
    (select (cmpi .slt idx (broadcastInDim S200 ![] bcast_S_S200 (constantI S_ 32 0#32)))
      (addi idx (broadcastInDim S200 ![] bcast_S_S200 (constantI S_ 32 1500#32))) idx)

/-- The range test of a column of row numbers: 1 where 0 ≤ row ≤ 1499. -/
def inRange (w : IVec S200x1 32) : IVec S200 1 :=
  Host.reduce IntOp.andi
    (andi (cmpi .sge w (broadcastInDim S200x1 ![] bcast_S_S200x1 (constantI S_ 32 0#32)))
      (cmpi .sle w (broadcastInDim S200x1 ![0, 1] bcast_S1x1_S200x1_0_1
        (broadcastInDim S1x1 ![1] bcast_S1_S1x1_1 (constantI S1 32 1499#32)))))
    (constantI S_ 1 1#1) reducesTo_S200x1_S200_d1 h_S_

/-- Rows of a table at the anchor indices, a row out of range replaced by the filler word. -/
def takeRows (x : FVec F S1500x4x64 .f32) (idx : IVec S200 32) : FVec F S200x4x64 .f32 :=
  select (broadcastInDim S200x4x64 ![0] bcast_S200_S200x4x64_0 (inRange (col idx)))
    (Host.gather gather_S1500x4x64_S200x1_S200x4x64_12_0_n_n_0_1_1464 x (col idx))
    (broadcastInDim S200x4x64 ![] bcast_S_S200x4x64 (constant (F := F) S_ .f32 0x7FC00000#32))

/-- The anchor-pair sums as this program takes them. -/
def anchorSumsK (s t : FVec F S1500x4x64 .f32) (ar ac : IVec S200 32) : FVec F S4 .f32 :=
  Host.reduceAdd (Host.absf (subf (takeRows s ar) (takeRows t ac))) (constant (F := F) S_ .f32 0x00000000#32)
    reducesTo_S200x4x64_S4_d0_2 h_S_

variable (m : (ℓ : Loc nD τ sig) → Buf (Elt F) ℓ)

/-- The host lines before the launch, spelt out as one list. -/
theorem prefix_eq : (List.flatten [hostOps0, hostOps0_1, hostOps0_2, hostOps0_3, hostOps0_4, hostOps0_5, hostOps0_6]
      : List (HloOp τ sig (Elt F))) = hostOps0 ++ (hostOps0_1 ++ (hostOps0_2 ++ (hostOps0_3 ++ (hostOps0_4 ++ (hostOps0_5 ++ hostOps0_6))))) := by
  simp only [List.flatten_cons, List.flatten_nil, List.append_nil]

theorem V_v5 (c : Dev nD) : (V m c main_v5 : FVec F S1500x256 .f32) = flat (m ((c : Thread nD τ).loc main_arg0)) := by
  dsimp only [V, V0]
  simp only [hostOps0, hostOps0_1, hostOps0_2, hostOps0_3, hostOps0_4, hostOps0_5, hostOps0_6, List.flatten_cons,
    List.flatten_nil, List.append_nil, List.cons_append, List.nil_append]
  after_results
  rfl

theorem V_v6 (c : Dev nD) : (V m c main_v6 : FVec F S1500x256 .f32) = flat (m ((c : Thread nD τ).loc main_arg1)) := by
  dsimp only [V, V0]
  simp only [hostOps0, hostOps0_1, hostOps0_2, hostOps0_3, hostOps0_4, hostOps0_5, hostOps0_6, List.flatten_cons,
    List.flatten_nil, List.append_nil, List.cons_append, List.nil_append]
  after_results
  rfl

theorem V_v7 (c : Dev nD) : (V m c main_v7 : FVec F S1536x256 .f32) = flatPad (m ((c : Thread nD τ).loc main_arg0)) := by
  dsimp only [V, V0]
  simp only [hostOps0, hostOps0_1, hostOps0_2, hostOps0_3, hostOps0_4, hostOps0_5, hostOps0_6, List.flatten_cons,
    List.flatten_nil, List.append_nil, List.cons_append, List.nil_append]
  after_results
  rfl

theorem V_v8 (c : Dev nD) : (V m c main_v8 : FVec F S1536x256 .f32) = flatPad (m ((c : Thread nD τ).loc main_arg1)) := by
  dsimp only [V, V0]
  simp only [hostOps0, hostOps0_1, hostOps0_2, hostOps0_3, hostOps0_4, hostOps0_5, hostOps0_6, List.flatten_cons,
    List.flatten_nil, List.append_nil, List.cons_append, List.nil_append]
  after_results
  rfl

theorem V_v4 (c : Dev nD) : (V m c main_v4 : FVec F S4 .f32)
    = anchorSumsK (m ((c : Thread nD τ).loc main_arg0)) (m ((c : Thread nD τ).loc main_arg1))
        (m ((c : Thread nD τ).loc main_arg2)) (m ((c : Thread nD τ).loc main_arg3)) := by
  dsimp only [V, V0]
  simp only [hostOps0, hostOps0_1, hostOps0_2, hostOps0_3, hostOps0_4, hostOps0_5, hostOps0_6, List.flatten_cons,
    List.flatten_nil, List.append_nil, List.cons_append, List.nil_append]
  after_results_simp
  rfl

theorem V_cst (c : Dev nD) : (V m c main_cst : FVec F S4 .f32) = fun i => FloatOps.ofBits .f32 (lit0 (S4.rowMajor i)) := by
  dsimp only [V, V0]
  simp only [hostOps0, hostOps0_1, hostOps0_2, hostOps0_3, hostOps0_4, hostOps0_5, hostOps0_6, List.flatten_cons,
    List.flatten_nil, List.append_nil, List.cons_append, List.nil_append]
  after_results
  rfl

end Cert.PairL1.Ker

end
-- ==== Proof.Spec.lean ====
/-
  The mathematics both programs compute, stated once, over extended reals.

  For relation type k (of 4) and embedding tables s, t of shape [1500, 4, 64], the all-pairs L1 sum is
      allPairs s t k = ∑ i < 1500, ∑ j < 1500, ∑ d < 64, |s[i,k,d] - t[j,k,d]|.
  The kernel pads both tables with 36 zero rows, accumulates |s_i - t_j| feature by feature over a 16 x 16 grid
  of 96 x 96 row blocks (gridSum), and subtracts what the zero rows contributed: 36 times each table's column
  sum of absolute values (colAbs).  The closing arithmetic from the per-type sums to the one loss value is the
  same in both programs and is carried as one function (lossTail), never opened.
-/
import Idealize.ShloMosaic.PureOps.Ideal
import Idealize.ShloMosaic.PureOps.Ideal.Laws
import Idealize.ShloMosaic.Lib.ValueIdx

noncomputable section

namespace Cert.PairL1

open Idealize.ShloMosaic Idealize.ShloMosaic.ValueIdx
open scoped BigOperators

/-- The shape of an embedding table: 1500 entities, 4 relation types, 64 features. -/
abbrev Emb : Shape := ⟨3, ![1500, 4, 64]⟩
/-- One value per relation type. -/
abbrev PerType : Shape := ⟨1, ![4]⟩
/-- A scalar. -/
abbrev Scal : Shape := ⟨0, ![]⟩

/-- The absolute value of an extended real, as the ideal operations take it: the larger of x and -x. -/
def eabs (x : EReal) : EReal := max x (-x)

/-- The all-pairs L1 sum of relation type k. -/
def allPairs (s t : Emb.Idx → EReal) (k : Fin 4) : EReal :=
  ∑ i : Fin 1500, ∑ j : Fin 1500, ∑ d : Fin 64, eabs (s (ix3 i k d) - t (ix3 j k d))

/-- Row r of a table after 36 zero rows are appended: the table's row below 1500, zero from there on. -/
def padded (s : Emb.Idx → EReal) (r : ℕ) (k : Fin 4) (d : Fin 64) : EReal :=
  if h : r < 1500 then s (ix3 ⟨r, h⟩ k d) else 0

/-- The sum of absolute values down one feature column of a table. -/
def colAbs (s : Emb.Idx → EReal) (k : Fin 4) (d : Fin 64) : EReal :=
  ∑ i : Fin 1500, eabs (s (ix3 i k d))

/-- What the 16 x 16 grid of 96 x 96 blocks accumulates for feature (k, d): at grid point p the block of
    rows 96 (p / 16) … of the first padded table meets the block of rows 96 (p % 16) … of the second. -/
def gridSum (s t : Emb.Idx → EReal) (k : Fin 4) (d : Fin 64) : EReal :=
  ∑ p : Fin 256, ∑ tj : Fin 96, ∑ ti : Fin 96,
    eabs (padded s (96 * (p.val / 16) + ti.val) k d - padded t (96 * (p.val % 16) + tj.val) k d)

/-- The 200 anchor indices; the same as a column; the 200 table rows they pick. -/
abbrev Anch : Shape := ⟨1, ![200]⟩
abbrev AnchCol : Shape := ⟨2, ![200, 1]⟩
abbrev Picked : Shape := ⟨3, ![200, 4, 64]⟩

/-- Picking whole rows [4, 64] of a table along a column of row numbers. -/
def rowsOf : GatherDims Emb AnchCol Picked where
  offsetDims := [1, 2]
  collapsedSliceDims := [0]
  operandBatchingDims := []
  startIndicesBatchingDims := []
  startIndexMap := [0]
  indexVectorDim := 1
  sliceSizes := ![1, 4, 64]
  wf := by decide

/-- An anchor index read as Python reads it: a negative one counts from the end, 1500 is added to it. -/
def wrapped (idx : IVec Anch 32) : IVec Anch 32 :=
  select (cmpi .slt idx (broadcastInDim Anch ![] (by decide) (constantI Scal 32 0#32)))
    (addi idx (broadcastInDim Anch ![] (by decide) (constantI Scal 32 1500#32))) idx

/-- The rows of a table at the (wrapped) anchor indices. -/
def pick {α : Type} (x : Emb.Idx → α) (idx : IVec Anch 32) : Picked.Idx → α :=
  Host.gather rowsOf x (broadcastInDim AnchCol ![0] (by decide) (wrapped idx))

/-- The anchor-pair L1 sums, one per relation type: ∑ over the 200 anchors b and the 64 features d of
    |s[rows b, k, d] - t[cols b, k, d]|, as the host's reduce states it. -/
def anchorSums {F : FTy → Type} [FloatOps F] (s t : FVec F Emb .f32) (ar ac : IVec Anch 32) : FVec F PerType .f32 :=
  Host.reduceAdd (Host.absf (subf (pick s ar) (pick t ac))) (constant Scal .f32 0x00000000#32)
    (by decide : Picked.ReducesTo [0, 2] PerType) (by decide)

/-- The per-type weights 0.4, 0.2, 0.2, 0.2 as the f32 words both programs carry. -/
def weightWord : Fin 4 → BitVec 32 := fun
  | 0 => 0x3ECCCCCD#32 | 1 => 0x3E4CCCCD#32 | 2 => 0x3E4CCCCD#32 | 3 => 0x3E4CCCCD#32
def typeWeights {F : FTy → Type} [FloatOps F] : FVec F PerType .f32 :=
  fun i => FloatOps.ofBits .f32 (weightWord (PerType.rowMajor i))

/-- The closing arithmetic shared by both programs, from the per-type anchor sums alm and all-pairs sums all
    (and the per-type weights w) to the loss:
    (∑ₖ wₖ · (almₖ · 2249800 + (6749400 − (allₖ − almₖ)) · 200) / 64) / 2250000. -/
def lossTail {F : FTy → Type} [FloatOps F] (w alm all : FVec F PerType .f32) : FVec F Scal .f32 :=
  Host.divf
    (Host.reduceAdd
      (Host.divf
        (mulf w
          (addf (mulf alm (broadcastInDim PerType ![] (by decide) (constant Scal .f32 0x4A095120#32)))
            (mulf
              (subf (broadcastInDim PerType ![] (by decide) (constant Scal .f32 0x4ACDF9B0#32)) (subf all alm))
              (broadcastInDim PerType ![] (by decide) (constant Scal .f32 0x43480000#32)))))
        (broadcastInDim PerType ![] (by decide) (constant Scal .f32 0x42800000#32)))
      (constant Scal .f32 0x00000000#32) (by decide : PerType.ReducesTo [0] Scal) (by decide))
    (constant Scal .f32 0x4A095440#32)

end Cert.PairL1

end
-- ==== Proof.KerTail.lean ====
/-
  The host lines after the kernel launch.  From the accumulator array they subtract 36 times each flattened
  table's column sums of absolute values, sum each relation type's 64 features, and apply the closing
  arithmetic shared with the reference (lossTail) to those and to the anchor sums.
-/
import proofs.«404473_j75007308858097_3_alg».proof.Proof.KerHost
import proofs.«404473_j75007308858097_3_alg».proof.Proof.Spec

noncomputable section

namespace Cert.PairL1.Ker

open Idealize.ShloMosaic Idealize.ShloMosaic.TcCoe Idealize.SL.Sem
open Idealize.ShloMosaic.Pipeline (Dat)
open Cert.KernelIdeal Cert.KernelIdeal.Gen

variable {F : FTy → Type} [FloatOps F]

/-- The per-type sums from the accumulator array acc and the two flattened tables fs, ft: the zero rows'
    share 36 · ∑|fs| + 36 · ∑|ft| subtracted, then the 64 features of each type summed. -/
def allSumsF (acc : FVec F S256 .f32) (fs ft : FVec F S1500x256 .f32) : FVec F S4 .f32 :=
  Host.reduceAdd
    (shapeCast S4x64
      (subf acc
        (addf
          (mulf (broadcastInDim S256 ![] bcast_S_S256 (constant (F := F) S_ .f32 0x42100000#32))
            (Host.reduceAdd (Host.absf fs) (constant (F := F) S_ .f32 0x00000000#32) reducesTo_S1500x256_S256_d0 h_S_))
          (mulf (broadcastInDim S256 ![] bcast_S_S256 (constant (F := F) S_ .f32 0x42100000#32))
            (Host.reduceAdd (Host.absf ft) (constant (F := F) S_ .f32 0x00000000#32) reducesTo_S1500x256_S256_d0 h_S_))))
      shapeCasts_S256_S4x64)
    (constant (F := F) S_ .f32 0x00000000#32) reducesTo_S4x64_S4_d1 h_S_

/-- The same from the tables themselves. -/
def allSumsK (acc : FVec F S256 .f32) (s t : FVec F S1500x4x64 .f32) : FVec F S4 .f32 :=
  allSumsF acc (flat s) (flat t)

variable (m : (ℓ : Loc nD τ sig) → Buf (Elt F) ℓ)

/-- The program's result buffer after the closing lines, over what the launch found in the buffers they read. -/
theorem tail_entry (c : Dev nD) :
    (Pipeline.afterTail₀ cfgs (dats m) 0 (V0 m) [hostOps1] c main_v34 : FVec F S_ .f32)
      = Cert.PairL1.lossTail (F := F) (V m c main_cst) (V m c main_v4)
          (allSumsF ((dats m 0 c).arrAt 2 cfg0.N) (V m c main_v5) (V m c main_v6)) := by
  unfold Pipeline.afterTail₀
  simp only [List.flatten_cons, List.flatten_nil, List.append_nil]
  simp only [hostOps1]
  after_results_simp
  have e9 : Pipeline.withArrays (cfgs 0).spec c (V0 m c) (fun w => (dats m 0 c).arrAt w (cfgs 0).N) (Proc.devRef .tc main_v9)
      = (dats m 0 c).arrAt 2 cfg0.N := Pipeline.withArrays_arr spec0 launch0.win.arr_inj c _ _ 2
  have e5 := Pipeline.withArrays_of_ne (cfgs 0).spec c (V0 m c) (fun w => (dats m 0 c).arrAt w (cfgs 0).N) main_v5
    (by exact (by decide : ∀ w, Pipeline.arrRef spec0 w ≠ main_v5))
  have e6 := Pipeline.withArrays_of_ne (cfgs 0).spec c (V0 m c) (fun w => (dats m 0 c).arrAt w (cfgs 0).N) main_v6
    (by exact (by decide : ∀ w, Pipeline.arrRef spec0 w ≠ main_v6))
  have e4 := Pipeline.withArrays_of_ne (cfgs 0).spec c (V0 m c) (fun w => (dats m 0 c).arrAt w (cfgs 0).N) main_v4
    (by exact (by decide : ∀ w, Pipeline.arrRef spec0 w ≠ main_v4))
  have ec := Pipeline.withArrays_of_ne (cfgs 0).spec c (V0 m c) (fun w => (dats m 0 c).arrAt w (cfgs 0).N) main_cst
    (by exact (by decide : ∀ w, Pipeline.arrRef spec0 w ≠ main_cst))
  rw [e9, e5, e6, e4, ec]
  rfl

/-- The same with the buffers' contents traced to the arguments. -/
theorem tail_eq (c : Dev nD) :
    (Pipeline.afterTail₀ cfgs (dats m) 0 (V0 m) [hostOps1] c main_v34 : FVec F S_ .f32)
      = Cert.PairL1.lossTail (F := F) (fun i => FloatOps.ofBits .f32 (lit0 (S4.rowMajor i)))
          (anchorSumsK (m ((c : Thread nD τ).loc main_arg0)) (m ((c : Thread nD τ).loc main_arg1))
            (m ((c : Thread nD τ).loc main_arg2)) (m ((c : Thread nD τ).loc main_arg3)))
          (allSumsK ((dats m 0 c).arrAt 2 cfg0.N) (m ((c : Thread nD τ).loc main_arg0)) (m ((c : Thread nD τ).loc main_arg1))) := by
  refine (tail_entry m c).trans ?_
  unfold allSumsK
  rw [V_v5 m c, V_v6 m c, V_v4 m c, V_cst m c]

end Cert.PairL1.Ker

end
-- ==== Proof.KerBody.lean ====
/-
  What one grid point's body leaves in the accumulator's staging buffer, in each of its two control cases.
  At the first grid point the body stores the zero vector, reads it back, and stores zero + partial; at every
  other point it reads what the point before left (acc) and stores acc + partial, where partial is the body's
  pure arithmetic on the two input blocks.
-/
import proofs.«404473_j75007308858097_3_alg».proof.Proof.Gen.KernelIdeal.Frame
import Idealize.ShloMosaic.Lib.Pipeline.Value
import Idealize.ShloMosaic.Lib.Tactic

noncomputable section

namespace Cert.PairL1.Ker

open Idealize.ShloMosaic Idealize.ShloMosaic.TcCoe Idealize.SL.Sem
open Idealize.ShloMosaic.Pipeline (Dat)
open Cert.KernelIdeal Cert.KernelIdeal.Gen

variable {F : FTy → Type} [FloatOps F]

theorem offs1 : (![0] : Fin 1 → Nat) = fun _ => 0 := funext fun a => by fin_cases a; rfl
theorem offs2 : (![0, 0] : Fin 2 → Nat) = fun _ => 0 := funext fun a => by fin_cases a <;> rfl

/-- Away from the first grid point: the accumulator's buffer, holding acc, ends at the body's sum of acc and the
    point's partial sums (the one covering store's payload; every load reads a whole buffer). -/
theorem out_B (c : Dev nD) (i : grid0.Coords) (a2 : Memref sig .tc .vmem S96x256 .f32) (h2 : a2.IsWhole)
    (a3 : Memref sig .tc .vmem S96x256 .f32) (h3 : a3.IsWhole) (a4 : Memref sig .tc .vmem S256 .f32) (h4 : a4.IsWhole)
    (hc : ¬cond0_0 i) (x0 x1 : Vec F S96x256 .f32) (acc : Vec F S256 .f32) :
    out0_B_2 c i a2 h2 a3 h3 a4 h4 hc x0 x1 acc = k0_pay2 x0 x1 acc := by
  unfold out0_B_2
  rw [View.read_writes_eq_canon _ _ _ (cover0_B_2 c i a2 h2 a3 h3 a4 h4 hc x0 x1 acc)]
  unfold kernelRun0_B
  dsimp only
  sl_unfold_words
  rw [View.canon_unit_zero offs1]
  simp only [View.readAt_eq_ld, h2.read_unread, h3.read_unread, h4.read_unread, View.ld_unit_zero (S := S96x256) offs2,
    View.ld_unit_zero (S := S256) offs1]

/-- At the first grid point: the zero vector is stored, read back, and the buffer ends at zero + partial. -/
theorem out_A (c : Dev nD) (i : grid0.Coords) (a2 : Memref sig .tc .vmem S96x256 .f32) (h2 : a2.IsWhole)
    (a3 : Memref sig .tc .vmem S96x256 .f32) (h3 : a3.IsWhole) (a4 : Memref sig .tc .vmem S256 .f32) (h4 : a4.IsWhole)
    (hc : cond0_0 i) (x0 x1 : Vec F S96x256 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S256) offs1, View.readCov_unit_zero (S := S256) _ offs1]
  simp only [View.readAt_eq_ld, h2.read_unread, h3.read_unread, View.ld_unit_zero (S := S96x256) offs2,
    View.ld_unit_zero (S := S256) offs1]

end Cert.PairL1.Ker

end
-- ==== Proof.KerPoint.lean ====
/-
  One grid point's arithmetic at the ideal values, read feature by feature: with x0 the block of the first
  padded table and x1 the block of the second, the value stored for feature f is
      acc f + ∑ tj < 96, ∑ ti < 96, |x0[ti, f] - x1[tj, f]|,
  the inner sum being the reduction over the first block's rows, the outer the reduction over the second's.
-/
import proofs.«404473_j75007308858097_3_alg».proof.Proof.Gen.KernelIdeal.Skeleton
import proofs.«404473_j75007308858097_3_alg».proof.Proof.Spec
import Idealize.ShloMosaic.Lib.Pipeline.Value
import Idealize.ShloMosaic.Lib.ValueIdx
import Idealize.ShloMosaic.PureOps.Ideal.Laws

noncomputable section

namespace Cert.PairL1.Ker

open Idealize.ShloMosaic Idealize.ShloMosaic.ValueIdx
open Cert.KernelIdeal Cert.KernelIdeal.Gen
open scoped BigOperators

/-- A block [96, 256] viewed with a unit axis in the middle reads the block. -/
theorem cast_mid {α : Type} (x : S96x256.Idx → α) (h : S96x256.ShapeCasts S96x1x256) (a : Fin 96) (u : Fin 1) (f : Fin 256) :
    shapeCast S96x1x256 x h (ix3 a u f) = x (ix2 a f) :=
  shapeCast_apply x h _ _ (by
    have hu : u.val = 0 := by omega
    rw [Shape.rowMajor_val_two, Shape.rowMajor_val_three]
    show a.val * 256 + f.val = (a.val * 1 + u.val) * 256 + f.val
    rw [hu]; omega)

/-- A block [96, 256] viewed with a leading unit axis reads the block. -/
theorem cast_lead {α : Type} (x : S96x256.Idx → α) (h : S96x256.ShapeCasts S1x96x256) (u : Fin 1) (b : Fin 96) (f : Fin 256) :
    shapeCast S1x96x256 x h (ix3 u b f) = x (ix2 b f) :=
  shapeCast_apply x h _ _ (by
    have hu : u.val = 0 := by omega
    rw [Shape.rowMajor_val_two, Shape.rowMajor_val_three]
    show b.val * 256 + f.val = (u.val * 96 + b.val) * 256 + f.val
    rw [hu]; omega)

/-- Repeating [96, 1, 256] along its unit axis: entry (a, b, f) is entry (a, 0, f). -/
theorem bcast_mid {α : Type} (x : S96x1x256.Idx → α) (h : S96x1x256.Broadcasts S96x96x256) (a b : Fin 96) (f : Fin 256) :
    broadcastTo S96x96x256 x h (ix3 a b f) = x (ix3 a (0 : Fin 1) f) := by
  refine broadcastTo_apply x h (ix3 a b f) (ix3 a (0 : Fin 1) f) fun ax => ?_
  match ax with
  | ⟨0, _⟩ => rfl
  | ⟨1, _⟩ => rfl
  | ⟨2, _⟩ => rfl

/-- Repeating [1, 96, 256] along its unit axis: entry (a, b, f) is entry (0, b, f). -/
theorem bcast_lead {α : Type} (x : S1x96x256.Idx → α) (h : S1x96x256.Broadcasts S96x96x256) (a b : Fin 96) (f : Fin 256) :
    broadcastTo S96x96x256 x h (ix3 a b f) = x (ix3 (0 : Fin 1) b f) := by
  refine broadcastTo_apply x h (ix3 a b f) (ix3 (0 : Fin 1) b f) fun ax => ?_
  match ax with
  | ⟨0, _⟩ => rfl
  | ⟨1, _⟩ => rfl
  | ⟨2, _⟩ => rfl

/-- The zero vector the first grid point stores. -/
theorem zero_apply (f : Fin 256) : (k0_pay1 (F := Ideal)) (ix1 f) = 0 := by
  unfold k0_pay1
  show Ideal.ofBits .f32 0x00000000#32 = 0
  exact Ideal.ofBits_zero_f32

/-- One pair of rows: the broadcast difference's absolute value at (ti, tj, f) is |x0[ti, f] - x1[tj, f]|. -/
theorem pair_apply (x0 x1 : FVec Ideal S96x256 .f32) (ti tj : Fin 96) (f : Fin 256) :
    max (broadcastTo S96x96x256
          (shapeCast S96x1x256 (shapeCast S96x256 x0 shapeCasts_S96x256_S96x256) shapeCasts_S96x256_S96x1x256)
          broadcasts_S96x1x256_S96x96x256 (ix3 ti tj f) -
        broadcastTo S96x96x256
          (shapeCast S1x96x256 (shapeCast S96x256 x1 shapeCasts_S96x256_S96x256) shapeCasts_S96x256_S1x96x256)
          broadcasts_S1x96x256_S96x96x256 (ix3 ti tj f))
      (-(broadcastTo S96x96x256
            (shapeCast S96x1x256 (shapeCast S96x256 x0 shapeCasts_S96x256_S96x256) shapeCasts_S96x256_S96x1x256)
            broadcasts_S96x1x256_S96x96x256 (ix3 ti tj f) -
          broadcastTo S96x96x256
            (shapeCast S1x96x256 (shapeCast S96x256 x1 shapeCasts_S96x256_S96x256) shapeCasts_S96x256_S1x96x256)
            broadcasts_S1x96x256_S96x96x256 (ix3 ti tj f)))
      = eabs (x0 (ix2 ti f) - x1 (ix2 tj f)) := by
  rw [bcast_mid, bcast_lead, cast_mid, cast_lead, shapeCast_self, shapeCast_self]
  rfl

/-- The value a grid point stores for feature f: what the accumulator held plus the point's partial sums. -/
theorem point_apply (x0 x1 : FVec Ideal S96x256 .f32) (acc : FVec Ideal S256 .f32) (f : Fin 256) :
    k0_pay2 (F := Ideal) x0 x1 acc (ix1 f)
      = acc (ix1 f) + ∑ tj : Fin 96, ∑ ti : Fin 96, eabs (x0 (ix2 ti f) - x1 (ix2 tj f)) := by
  unfold k0_pay2
  refine (addf_apply _ _ _).trans ?_
  congr 1
  · rw [shapeCast_self]
  · refine (Ideal.multiReduction_add_single _ _ reduces_S96x256_S256 _ _ (ix1 f)).trans ?_
    refine Finset.sum_congr rfl fun tj _ => ?_
    have e1 : reduces_S96x256_S256.lift (ix1 f) tj = ix2 tj f :=
      funext fun a => Fin.ext (by match a with | ⟨0, _⟩ => rfl | ⟨1, _⟩ => rfl)
    rw [e1]
    refine (Ideal.multiReduction_add_single _ _ reduces_S96x96x256_S96x256 _ _ (ix2 tj f)).trans ?_
    refine Finset.sum_congr rfl fun ti _ => ?_
    have e2 : reduces_S96x96x256_S96x256.lift (ix2 tj f) ti = ix3 ti tj f :=
      funext fun a => Fin.ext (by match a with | ⟨0, _⟩ => rfl | ⟨1, _⟩ => rfl | ⟨2, _⟩ => rfl)
    rw [e2]
    exact pair_apply x0 x1 ti tj f

end Cert.PairL1.Ker

end
-- ==== Proof.KerAcc.lean ====
/-
  The accumulator across the grid.  After grid point n its staging buffer holds, for feature f, the sum over
  the points 0 … n of each point's partial sums: the first point starts from the zero it stores, every later
  point adds to what the point before left.  By induction on the point.
-/
import proofs.«404473_j75007308858097_3_alg».proof.Proof.KerBody
import proofs.«404473_j75007308858097_3_alg».proof.Proof.KerPoint

noncomputable section

namespace Cert.PairL1.Ker

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

variable (m : (ℓ : Loc nD τ sig) → Buf (Elt Ideal) ℓ)

/-- The block of the first padded table that grid point t reads, and the block of the second. -/
abbrev sblk (c : Dev nD) (t : Fin cfg0.N) : FVec Ideal S96x256 .f32 := iblk m c 0 t
abbrev tblk (c : Dev nD) (t : Fin cfg0.N) : FVec Ideal S96x256 .f32 := iblk m c 1 t

/-- What grid point p adds for feature f: the sum over its 96 x 96 pairs of rows. -/
def part (c : Dev nD) (p : ℕ) (f : Fin 256) : EReal :=
  if h : p < cfg0.N then
    ∑ tj : Fin 96, ∑ ti : Fin 96, eabs (sblk m c ⟨p, h⟩ (ix2 ti f) - tblk m c ⟨p, h⟩ (ix2 tj f))
  else 0

theorem part_of_lt (c : Dev nD) (p : ℕ) (h : p < cfg0.N) (f : Fin 256) :
    part m c p f = ∑ tj : Fin 96, ∑ ti : Fin 96, eabs (sblk m c ⟨p, h⟩ (ix2 ti f) - tblk m c ⟨p, h⟩ (ix2 tj f)) := by
  unfold part; rw [dif_pos h]

/-- After point n the accumulator holds the sum of the parts of points 0 … n. -/
theorem outsAt_eq (c : Dev nD) : ∀ (n : ℕ) (h : n < cfg0.N) (f : Fin 256),
    (outsAt0 m c n h : FVec Ideal S256 .f32) (ix1 f) = ∑ p ∈ Finset.range (n + 1), part m c p f
  | 0, h, f => by
    rw [outsAt0_A m c ⟨0, h⟩ rfl, out_A]
    refine (point_apply (sblk m c ⟨0, h⟩) (tblk m c ⟨0, h⟩) (k0_pay1 (F := Ideal)) f).trans ?_
    rw [zero_apply, zero_add, Finset.sum_range_one, part_of_lt m c 0 h]
  | n + 1, h, f => by
    have hN : cfg0.N = 256 := N_0
    have hB : ¬(⟨n + 1, h⟩ : Fin cfg0.N).val % 256 = 0 := by dsimp only; omega
    rw [outsAt0_B m c ⟨n + 1, h⟩ hB, out_B]
    refine (point_apply (sblk m c ⟨n + 1, h⟩) (tblk m c ⟨n + 1, h⟩) _ f).trans ?_
    rw [Finset.sum_range_succ, part_of_lt m c (n + 1) h]
    congr 1
    exact outsAt_eq c n (Nat.lt_of_succ_lt h) f

end Cert.PairL1.Ker

end
-- ==== Proof.KerRead.lean ====
/-
  The blocks a grid point reads, traced back to the tables.  Point p reads rows 96 (p / 16) … of the first
  padded table and rows 96 (p % 16) … of the second; a padded table is the flattened table below row 1500 and
  zero from there on; and column 64 k + d of the flattened table is feature d of relation type k.
-/
import proofs.«404473_j75007308858097_3_alg».proof.Proof.KerAcc
import proofs.«404473_j75007308858097_3_alg».proof.Proof.KerHost
import proofs.«404473_j75007308858097_3_alg».proof.Proof.Spec

noncomputable section

namespace Cert.PairL1.Ker

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

/-- Column 64 k + d of the flattened table. -/
abbrev feat (k : Fin 4) (d : Fin 64) : Fin 256 := ⟨64 * k.val + d.val, by omega⟩

/-- The flattened table at (i, 64 k + d) is the table at (i, k, d): the same row-major position. -/
theorem flat_apply (s : FVec Ideal S1500x4x64 .f32) (i : Fin 1500) (k : Fin 4) (d : Fin 64) :
    flat s (ix2 i (feat k d)) = s (ix3 i k d) := by
  unfold flat
  refine shapeCast_apply s _ _ _ ?_
  rw [Shape.rowMajor_val_two, Shape.rowMajor_val_three]
  show (i.val * 4 + k.val) * 64 + d.val = i.val * 256 + (64 * k.val + d.val)
  omega

/-- The padded flattened table at row r: the table's row below 1500, zero from there on. -/
theorem flatPad_apply (s : FVec Ideal S1500x4x64 .f32) (r : Fin 1536) (k : Fin 4) (d : Fin 64) :
    flatPad s (ix2 r (feat k d)) = Cert.PairL1.padded s r.val k d := by
  unfold flatPad pad Cert.PairL1.padded
  by_cases h : r.val < 1500
  · rw [dif_pos h, dif_pos (by
      intro a
      match a with
      | ⟨0, _⟩ => exact ⟨Nat.zero_le _, Nat.mod_one _, by show (r.val - 0) / 1 < 1500; omega⟩
      | ⟨1, _⟩ => exact ⟨Nat.zero_le _, Nat.mod_one _, by show ((feat k d).val - 0) / 1 < 256; omega⟩)]
    refine Eq.trans (congrArg (flat s) ?_) (flat_apply s ⟨r.val, h⟩ k d)
    funext a
    apply Fin.ext
    match a with
    | ⟨0, _⟩ => show (r.val - 0) / 1 = r.val; omega
    | ⟨1, _⟩ => show ((feat k d).val - 0) / 1 = (feat k d).val; omega
  · rw [dif_neg h, dif_neg (by
      intro hin
      have := (hin 0).2.2
      have h2 : (r.val - 0) / 1 < 1500 := this
      omega)]
    show ((((0#32 : BitVec 32).toInt : ℝ)) : EReal) = 0
    norm_num

variable (m : (ℓ : Loc nD τ sig) → Buf (Elt Ideal) ℓ)

/-- Which block each input window is on at a grid point: decided once over the 256 points. -/
theorem idx_facts : ∀ t : Fin cfg0.N, win0_0.index t 0 = t.val / 16 ∧ win0_0.index t 1 = 0
    ∧ win0_1.index t 0 = t.val % 16 ∧ win0_1.index t 1 = 0 :=
  (by decide +kernel : ∀ t : Fin grid0.N, win0_0.index t 0 = t.val / 16 ∧ win0_0.index t 1 = 0
    ∧ win0_1.index t 0 = t.val % 16 ∧ win0_1.index t 1 = 0)

/-- Row ti of the first table's block at point t is row 96 (t / 16) + ti of the padded table. -/
theorem sblk_apply (c : Dev nD) (t : Fin cfg0.N) (ti : Fin 96) (f : Fin 256) (r : Fin 1536)
    (hr : r.val = 96 * (t.val / 16) + ti.val) :
    sblk m c t (ix2 ti f) = (V m c main_v7 : FVec Ideal S1536x256 .f32) (ix2 r f) := by
  have hi := idx_facts t
  unfold sblk iblk
  rw [View.read_apply]
  show V m c main_v7 _ = V m c main_v7 _
  congr 1
  funext a
  apply Fin.ext
  match a with
  | ⟨0, _⟩ => show win0_0.index t 0 * 96 + 1 * ti.val = r.val; rw [hi.1, hr]; omega
  | ⟨1, _⟩ => show win0_0.index t 1 * 256 + 1 * f.val = f.val; rw [hi.2.1]; omega

/-- Row tj of the second table's block at point t is row 96 (t % 16) + tj of the padded table. -/
theorem tblk_apply (c : Dev nD) (t : Fin cfg0.N) (tj : Fin 96) (f : Fin 256) (r : Fin 1536)
    (hr : r.val = 96 * (t.val % 16) + tj.val) :
    tblk m c t (ix2 tj f) = (V m c main_v8 : FVec Ideal S1536x256 .f32) (ix2 r f) := by
  have hi := idx_facts t
  unfold tblk iblk
  rw [View.read_apply]
  show V m c main_v8 _ = V m c main_v8 _
  congr 1
  funext a
  apply Fin.ext
  match a with
  | ⟨0, _⟩ => show win0_1.index t 0 * 96 + 1 * tj.val = r.val; rw [hi.2.2.1, hr]; omega
  | ⟨1, _⟩ => show win0_1.index t 1 * 256 + 1 * f.val = f.val; rw [hi.2.2.2]; omega

/-- What point p adds for feature (k, d), over the padded tables. -/
theorem part_eq (c : Dev nD) (p : Fin 256) (k : Fin 4) (d : Fin 64) :
    part m c p.val (feat k d)
      = ∑ tj : Fin 96, ∑ ti : Fin 96,
          Cert.PairL1.eabs (Cert.PairL1.padded (m ((c : Thread nD τ).loc main_arg0)) (96 * (p.val / 16) + ti.val) k d
            - Cert.PairL1.padded (m ((c : Thread nD τ).loc main_arg1)) (96 * (p.val % 16) + tj.val) k d) := by
  have hN : cfg0.N = 256 := N_0
  have hp : p.val < cfg0.N := by rw [hN]; exact p.isLt
  rw [part_of_lt m c p.val hp]
  refine Finset.sum_congr rfl fun tj _ => Finset.sum_congr rfl fun ti _ => ?_
  have hd : p.val / 16 < 16 := by have := p.isLt; omega
  have hm : p.val % 16 < 16 := Nat.mod_lt _ (by decide)
  rw [sblk_apply m c ⟨p.val, hp⟩ ti (feat k d) ⟨96 * (p.val / 16) + ti.val, by have := ti.isLt; omega⟩ rfl,
    tblk_apply m c ⟨p.val, hp⟩ tj (feat k d) ⟨96 * (p.val % 16) + tj.val, by have := tj.isLt; omega⟩ rfl,
    V_v7, V_v8, flatPad_apply, flatPad_apply]

end Cert.PairL1.Ker

end
-- ==== Proof.KerFinal.lean ====
/-
  The accumulator written back.  The output window's one block is the whole [256] array and it is written back
  after the last grid point only, so the array ends holding what the accumulator's staging buffer held after
  point 255: for feature f, the sum of all 256 points' parts.
-/
import proofs.«404473_j75007308858097_3_alg».proof.Proof.KerAcc

noncomputable section

namespace Cert.PairL1.Ker

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

variable (m : (ℓ : Loc nD τ sig) → Buf (Elt Ideal) ℓ)

/-- The output window sits on block 0 at every grid point, and its block is all 256 entries: decided once
    over the grid, then used by rewriting (never evaluated at one late point). -/
theorem out_idx : ∀ t : Fin cfg0.N, win0_2.index t 0 = 0 :=
  (by decide +kernel : ∀ t : Fin grid0.N, win0_2.index t 0 = 0)
theorem out_xsize : ∀ t : Fin cfg0.N, win0_2.xsize (grid0.coords t) 0 = 256 :=
  (by decide +kernel : ∀ t : Fin grid0.N, win0_2.xsize (grid0.coords t) 0 = 256)

/-- The accumulator's contents depend on the point's number only. -/
theorem outsAt_congr (c : Dev nD) : ∀ (n n' : ℕ) (h : n < cfg0.N) (h' : n' < cfg0.N), n = n' →
    outsAt0 m c n h = outsAt0 m c n' h' := by
  intro n n' h h' e; subst e; rfl

theorem lt_last : 255 < cfg0.N := by rw [show cfg0.N = 256 from N_0]; decide

/-- What the accumulator holds after the last point, as contents of the result array. -/
abbrev accFinal (c : Dev nD) : Buf (Elt Ideal) ((c : Thread nD τ).loc main_v9) := outsAt0 m c 255 lt_last

/-- The one write-back, after the last point, writes exactly that: the block at zero offsets is the array. -/
theorem flushed_eq (c : Dev nD) (t : Fin cfg0.N) (hf : (cfg0.win 2).flush t = true) :
    (dats m 0 c).flushed 2 t = ((cfg0.win 2).blk t).view.read (Elt Ideal) (accFinal m c) := by
  have hN : cfg0.N = 256 := N_0
  have h255 : t.val = 255 := by have := (flush0_2 t).mp hf; have := t.isLt; omega
  show (cfg0.win 2).cut (grid0.coords t) ((dats m 0 c).after 2 t) = _
  rw [after0_2, outsAt_congr m c t.val 255 t.isLt lt_last h255]
  have hz' : (fun a => win0_2.index t a * main_v9.ty.shape.size a) = fun _ => 0 :=
    funext fun a => by
      match a with
      | ⟨0, _⟩ => show win0_2.index t 0 * _ = 0; rw [out_idx t, Nat.zero_mul]
  exact (Memref.read_access_unit_zero (Elt Ideal) main_v9 hz' (fun a => by rw [congrFun hz' a]; simp) (accFinal m c)).symm

/-- Every entry of the array lies in the output window's block, at any grid point. -/
theorem covered (t : Fin cfg0.N) (i : S256.Idx) : i ∈ ((cfg0.win 2).blk t).view.set := by
  show i ∈ ((View.whole main_v9).slice (win0_2.rect t)).set
  rw [View.set_slice_whole, Rect.mem_set_unit]
  intro a
  have h0 : (i 0 : Nat) < 256 := (i 0).isLt
  match a with
  | ⟨0, _⟩ =>
    show win0_2.index t 0 * win0_2.size 0 ≤ (i 0 : Nat)
      ∧ (i 0 : Nat) < win0_2.index t 0 * win0_2.size 0 + win0_2.xsize (grid0.coords t) 0
    rw [out_idx t, out_xsize t]
    omega

/-- So the result array ends holding the accumulator's last contents. -/
theorem final_acc (c : Dev nD) : (dats m 0 c).arrAt 2 cfg0.N = accFinal m c :=
  (dats m 0 c).arrAt_eq_of_cover 2 (accFinal m c) (flushed_eq m c) fun i =>
    ⟨⟨255, lt_last⟩, (flush0_2 _).mpr rfl, covered _ i⟩

/-- Feature f of the result array: the sum over all grid points of their parts. -/
theorem final_apply (c : Dev nD) (f : Fin 256) :
    ((dats m 0 c).arrAt 2 cfg0.N : FVec Ideal S256 .f32) (ix1 f) = ∑ p ∈ Finset.range 256, part m c p f := by
  rw [final_acc]
  exact outsAt_eq m c 255 lt_last f

end Cert.PairL1.Ker

end
-- ==== Proof.Algebra.lean ====
/-
  The de-padding identity: for finite tables, the sum over the padded 16 x 16 grid of blocks, less 36 times
  each table's column sums of absolute values, is the all-pairs sum over the 1500 x 1500 true pairs.
-/
import proofs.«404473_j75007308858097_3_alg».proof.Proof.Spec
import Mathlib.Algebra.BigOperators.Fin
import Mathlib.Algebra.BigOperators.Ring.Finset
import Mathlib.Logic.Equiv.Fin.Basic
import Mathlib.Data.EReal.Basic
import Mathlib.Data.EReal.Operations

noncomputable section

namespace Cert.PairL1

open Idealize.ShloMosaic Idealize.ShloMosaic.ValueIdx
open scoped BigOperators

/-! ### Re-indexing sums over blocks -/

/-- A sum over m blocks of n consecutive naturals is the sum over the first m * n naturals. -/
theorem sum_blocks {M : Type*} [AddCommMonoid M] (m n : ℕ) (h : ℕ → M) :
    ∑ a : Fin m, ∑ b : Fin n, h (n * a.val + b.val) = ∑ I : Fin (m * n), h I.val := by
  rw [← Equiv.sum_comp finProdFinEquiv (fun I : Fin (m * n) => h I.val), Fintype.sum_prod_type]
  refine Finset.sum_congr rfl (fun a _ => Finset.sum_congr rfl (fun b _ => ?_))
  rw [finProdFinEquiv_apply_val, Nat.add_comm]

/-- A sum over p < m * n of a function of (p / n, p % n) is the double sum over quotient and remainder. -/
theorem sum_divmod {M : Type*} [AddCommMonoid M] (m n : ℕ) (g : ℕ → ℕ → M) :
    ∑ p : Fin (m * n), g (p.val / n) (p.val % n) = ∑ a : Fin m, ∑ b : Fin n, g a.val b.val := by
  rw [← Equiv.sum_comp finProdFinEquiv (fun p : Fin (m * n) => g (p.val / n) (p.val % n)),
    Fintype.sum_prod_type]
  refine Finset.sum_congr rfl (fun a _ => Finset.sum_congr rfl (fun b _ => ?_))
  have hn : 0 < n := Nat.pos_of_ne_zero fun H => Nat.not_lt_zero b.1 (H ▸ b.2)
  rw [finProdFinEquiv_apply_val, Nat.add_mul_div_left _ _ hn, Nat.div_eq_of_lt b.2, Nat.zero_add,
    Nat.add_mul_mod_self_left, Nat.mod_eq_of_lt b.2]

/-- The grid of 16 x 16 blocks of 96 x 96 entries visits every pair (I, J) below 1536 exactly once. -/
theorem grid_reindex {M : Type*} [AddCommMonoid M] (f : ℕ → ℕ → M) :
    ∑ p : Fin 256, ∑ tj : Fin 96, ∑ ti : Fin 96, f (96 * (p.val / 16) + ti.val) (96 * (p.val % 16) + tj.val)
      = ∑ I : Fin 1536, ∑ J : Fin 1536, f I.val J.val := by
  calc ∑ p : Fin 256, ∑ tj : Fin 96, ∑ ti : Fin 96,
          f (96 * (p.val / 16) + ti.val) (96 * (p.val % 16) + tj.val)
      = ∑ a : Fin 16, ∑ b : Fin 16, ∑ tj : Fin 96, ∑ ti : Fin 96,
          f (96 * a.val + ti.val) (96 * b.val + tj.val) :=
        sum_divmod 16 16 (fun a b => ∑ tj : Fin 96, ∑ ti : Fin 96, f (96 * a + ti.val) (96 * b + tj.val))
    _ = ∑ a : Fin 16, ∑ J : Fin 1536, ∑ ti : Fin 96, f (96 * a.val + ti.val) J.val :=
        Finset.sum_congr rfl
          (fun a _ => sum_blocks 16 96 (fun J => ∑ ti : Fin 96, f (96 * a.val + ti.val) J))
    _ = ∑ a : Fin 16, ∑ ti : Fin 96, ∑ J : Fin 1536, f (96 * a.val + ti.val) J.val :=
        Finset.sum_congr rfl (fun a _ => Finset.sum_comm)
    _ = ∑ I : Fin 1536, ∑ J : Fin 1536, f I.val J.val :=
        sum_blocks 16 96 (fun I => ∑ J : Fin 1536, f I J.val)

/-- A sum over the first 1536 naturals splits into the first 1500 and the 36 that follow. -/
theorem sum_split {M : Type*} [AddCommMonoid M] (h : ℕ → M) :
    ∑ I : Fin 1536, h I.val = ∑ i : Fin 1500, h i.val + ∑ r : Fin 36, h (1500 + r.val) := by
  have := Fin.sum_univ_add (a := 1500) (b := 36) (fun I => h I.val)
  simpa only [Fin.val_castAdd, Fin.val_natAdd] using this

/-! ### The identity over the reals -/

/-- A real column of 1500 entries extended by zero. -/
def padR (A : Fin 1500 → ℝ) (r : ℕ) : ℝ := if h : r < 1500 then A ⟨r, h⟩ else 0

theorem padR_lt (A : Fin 1500 → ℝ) (i : Fin 1500) : padR A i.val = A i := by
  unfold padR
  rw [dif_pos i.isLt]

theorem padR_ge (A : Fin 1500 → ℝ) (r : ℕ) : padR A (1500 + r) = 0 := by
  unfold padR
  rw [dif_neg (by omega)]

/-- The double sum over the zero-extended columns: the true pairs, 36 copies of each column's absolute
    sum (a true entry against a zero row), and nothing from zero against zero. -/
theorem padded_pairs (A B : Fin 1500 → ℝ) :
    ∑ I : Fin 1536, ∑ J : Fin 1536, |padR A I.val - padR B J.val|
      = ∑ i : Fin 1500, ∑ j : Fin 1500, |A i - B j| + (36 * ∑ i : Fin 1500, |A i| + 36 * ∑ j : Fin 1500, |B j|) := by
  have inner : ∀ x : ℝ, ∑ J : Fin 1536, |x - padR B J.val|
      = ∑ j : Fin 1500, |x - B j| + 36 * |x| := by
    intro x
    rw [sum_split (fun J => |x - padR B J|)]
    simp only [padR_lt, padR_ge, sub_zero, Finset.sum_const, Finset.card_univ, Fintype.card_fin,
      nsmul_eq_mul]
    norm_num
  rw [sum_split (fun I => ∑ J : Fin 1536, |padR A I - padR B J.val|)]
  simp only [padR_lt, padR_ge, inner]
  simp only [Finset.sum_add_distrib, zero_sub, abs_neg, abs_zero, mul_zero, add_zero, Finset.sum_const,
    Finset.card_univ, Fintype.card_fin, nsmul_eq_mul, ← Finset.mul_sum]
  norm_num
  ring

/-- The grid's accumulation over real columns, less the zero rows' share, is the sum over the true pairs. -/
theorem grid_real (A B : Fin 1500 → ℝ) :
    (∑ p : Fin 256, ∑ tj : Fin 96, ∑ ti : Fin 96,
        |padR A (96 * (p.val / 16) + ti.val) - padR B (96 * (p.val % 16) + tj.val)|)
      - (36 * ∑ i : Fin 1500, |A i| + 36 * ∑ j : Fin 1500, |B j|)
      = ∑ i : Fin 1500, ∑ j : Fin 1500, |A i - B j| := by
  rw [grid_reindex (fun I J => |padR A I - padR B J|), padded_pairs, add_sub_cancel_right]

/-! ### From extended reals to reals -/

/-- The coercion from the reals commutes with finite sums. -/
theorem coe_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- On a real, the larger of x and -x is the real absolute value. -/
theorem eabs_coe (x : ℝ) : eabs (x : EReal) = ((|x| : ℝ) : EReal) := by
  unfold eabs
  rw [← EReal.coe_neg, ← EReal.coe_strictMono.monotone.map_max, abs_eq_max_neg]

theorem eabs_coe_sub (x y : ℝ) : eabs ((x : EReal) - (y : EReal)) = ((|x - y| : ℝ) : EReal) := by
  rw [← EReal.coe_sub, eabs_coe]

/-- A padded row of a finite table is the coercion of the zero-extended real column. -/
theorem padded_coe (s : Emb.Idx → EReal) (sr : Emb.Idx → ℝ) (hsr : ∀ i, s i = (sr i : EReal))
    (k : Fin 4) (d : Fin 64) (r : ℕ) :
    padded s r k d = ((padR (fun i => sr (ix3 i k d)) r : ℝ) : EReal) := by
  unfold padded padR
  split_ifs with h
  · exact hsr _
  · rfl

theorem colAbs_coe (s : Emb.Idx → EReal) (sr : Emb.Idx → ℝ) (hsr : ∀ i, s i = (sr i : EReal))
    (k : Fin 4) (d : Fin 64) :
    colAbs s k d = ((∑ i : Fin 1500, |sr (ix3 i k d)| : ℝ) : EReal) := by
  unfold colAbs
  simp only [hsr, eabs_coe, coe_sum]

theorem gridSum_coe (s t : Emb.Idx → EReal) (sr tr : Emb.Idx → ℝ) (hsr : ∀ i, s i = (sr i : EReal))
    (htr : ∀ i, t i = (tr i : EReal)) (k : Fin 4) (d : Fin 64) :
    gridSum s t k d = ((∑ p : Fin 256, ∑ tj : Fin 96, ∑ ti : Fin 96,
        |padR (fun i => sr (ix3 i k d)) (96 * (p.val / 16) + ti.val)
          - padR (fun j => tr (ix3 j k d)) (96 * (p.val % 16) + tj.val)| : ℝ) : EReal) := by
  unfold gridSum
  simp only [padded_coe s sr hsr, padded_coe t tr htr, eabs_coe_sub, coe_sum]

/-- One feature: the grid's accumulation less the zero rows' share is the sum over the true pairs. The
    subtraction cancels because every term is the coercion of a real. -/
theorem depad_feature (s t : Emb.Idx → EReal) (sr tr : Emb.Idx → ℝ) (hsr : ∀ i, s i = (sr i : EReal))
    (htr : ∀ i, t i = (tr i : EReal)) (k : Fin 4) (d : Fin 64) :
    gridSum s t k d - (((36 : ℝ) : EReal) * colAbs s k d + ((36 : ℝ) : EReal) * colAbs t k d)
      = ∑ i : Fin 1500, ∑ j : Fin 1500, eabs (s (ix3 i k d) - t (ix3 j k d)) := by
  rw [gridSum_coe s t sr tr hsr htr, colAbs_coe s sr hsr, colAbs_coe t tr htr, ← EReal.coe_mul,
    ← EReal.coe_mul, ← EReal.coe_add, ← EReal.coe_sub,
    grid_real (fun i => sr (ix3 i k d)) (fun j => tr (ix3 j k d))]
  simp only [hsr, htr, eabs_coe_sub, coe_sum]

/-- Summed over the 64 features of relation type k: what the grid accumulates, less the zero rows' share,
    is the all-pairs L1 sum. Needs every entry finite (the subtraction must cancel). -/
theorem depad (s t : Emb.Idx → EReal) (hs : ∀ i, ∃ r : ℝ, s i = (r : EReal)) (ht : ∀ i, ∃ r : ℝ, t i = (r : EReal))
    (k : Fin 4) :
    ∑ d : Fin 64, (gridSum s t k d - (((36 : ℝ) : EReal) * colAbs s k d + ((36 : ℝ) : EReal) * colAbs t k d))
      = allPairs s t k := by
  choose sr hsr using hs
  choose tr htr using ht
  rw [Finset.sum_congr rfl (fun d _ => depad_feature s t sr tr hsr htr k d)]
  unfold allPairs
  rw [Finset.sum_comm]
  exact Finset.sum_congr rfl (fun i _ => Finset.sum_comm)

end Cert.PairL1

end
-- ==== Proof.KerValue.lean ====
/-
  The kernel program's per-type sums are the all-pairs sums.  Read at relation type k, the closing lines give
      ∑ d < 64, (acc[64 k + d] - (36 · ∑ᵢ |s[i,k,d]| + 36 · ∑ⱼ |t[j,k,d]|)),
  the accumulator entry acc[64 k + d] is the sum over the padded grid (gridSum), and the de-padding identity
  turns the whole into ∑ᵢ ∑ⱼ ∑_d |s[i,k,d] - t[j,k,d]| when the tables are finite.
-/
import proofs.«404473_j75007308858097_3_alg».proof.Proof.KerTail
import proofs.«404473_j75007308858097_3_alg».proof.Proof.KerRead
import proofs.«404473_j75007308858097_3_alg».proof.Proof.KerFinal
import proofs.«404473_j75007308858097_3_alg».proof.Proof.Algebra

noncomputable section

namespace Cert.PairL1.Ker

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

/-- The word 0x42100000 is the real number 36. -/
theorem word_36 : Ideal.ofBits .f32 0x42100000#32 = ((36 : ℝ) : EReal) := by
  simp [Ideal.ofBits, Ideal.ieee, -EReal.coe_mul]; norm_num

/-- A column sum of absolute values of the flattened table, at column 64 k + d. -/
theorem colsum_apply (s : FVec Ideal S1500x4x64 .f32) (k : Fin 4) (d : Fin 64) :
    Host.reduceAdd (F := Ideal) (Host.absf (flat s)) (constant (F := Ideal) S_ .f32 0x00000000#32)
        reducesTo_S1500x256_S256_d0 h_S_ (ix1 (feat k d))
      = Cert.PairL1.colAbs s k d := by
  show Ideal.hostReduceAdd reducesTo_S1500x256_S256_d0 _ _ (ix1 (feat k d)) = _
  rw [Ideal.hostReduceAdd_single reducesTo_S1500x256_S256_d0 (by decide : S1500x256.Reduces [0] S256)]
  show Ideal.ofBits .f32 0x00000000#32 + _ = _
  rw [Ideal.ofBits_zero_f32, zero_add]
  unfold Cert.PairL1.colAbs
  refine Finset.sum_congr rfl fun i _ => ?_
  exact colterm s i k d
where
  colterm (s : FVec Ideal S1500x4x64 .f32) (i : Fin 1500) (k : Fin 4) (d : Fin 64) :
      Host.absf (F := Ideal) (flat s) ((by decide : S1500x256.Reduces [0] S256).lift (ix1 (feat k d)) i)
        = Cert.PairL1.eabs (s (ix3 i k d)) := by
    have e : (by decide : S1500x256.Reduces [0] S256).lift (ix1 (feat k d)) i = ix2 i (feat k d) :=
      funext fun a => Fin.ext (by match a with | ⟨0, _⟩ => rfl | ⟨1, _⟩ => rfl)
    rw [e]
    show max (flat s (ix2 i (feat k d))) (-(flat s (ix2 i (feat k d)))) = _
    rw [flat_apply]
    rfl

/-- One entry of the de-padded accumulator, laid out [4, 64]. -/
theorem depadded_apply (acc : FVec Ideal S256 .f32) (s t : FVec Ideal S1500x4x64 .f32) (k : Fin 4) (d : Fin 64) :
    shapeCast S4x64
        (subf acc
          (addf
            (mulf (broadcastInDim S256 ![] bcast_S_S256 (constant (F := Ideal) S_ .f32 0x42100000#32))
              (Host.reduceAdd (F := Ideal) (Host.absf (flat s)) (constant (F := Ideal) S_ .f32 0x00000000#32) reducesTo_S1500x256_S256_d0 h_S_))
            (mulf (broadcastInDim S256 ![] bcast_S_S256 (constant (F := Ideal) S_ .f32 0x42100000#32))
              (Host.reduceAdd (F := Ideal) (Host.absf (flat t)) (constant (F := Ideal) S_ .f32 0x00000000#32) reducesTo_S1500x256_S256_d0 h_S_))))
        shapeCasts_S256_S4x64 (ix2 k d)
      = acc (ix1 (feat k d))
          - (((36 : ℝ) : EReal) * Cert.PairL1.colAbs s k d + ((36 : ℝ) : EReal) * Cert.PairL1.colAbs t k d) := by
  refine (shapeCast_apply _ shapeCasts_S256_S4x64 (ix2 k d) (ix1 (feat k d)) ?_).trans ?_
  · rw [Shape.rowMajor_val_one, Shape.rowMajor_val_two]
    show 64 * k.val + d.val = k.val * 64 + d.val
    omega
  · show acc (ix1 (feat k d)) - (Ideal.ofBits .f32 0x42100000#32 * _ + Ideal.ofBits .f32 0x42100000#32 * _) = _
    rw [word_36]
    congr 2
    · exact congrArg _ (colsum_apply s k d)
    · exact congrArg _ (colsum_apply t k d)

/-- The kernel program's sum for relation type k, from the accumulator array. -/
theorem allSumsK_apply (acc : FVec Ideal S256 .f32) (s t : FVec Ideal S1500x4x64 .f32) (k : Fin 4) :
    allSumsK acc s t (ix1 k)
      = ∑ d : Fin 64, (acc (ix1 (feat k d))
          - (((36 : ℝ) : EReal) * Cert.PairL1.colAbs s k d + ((36 : ℝ) : EReal) * Cert.PairL1.colAbs t k d)) := by
  unfold allSumsK allSumsF
  show Ideal.hostReduceAdd reducesTo_S4x64_S4_d1 _ _ (ix1 k) = _
  rw [Ideal.hostReduceAdd_single reducesTo_S4x64_S4_d1 (by decide : S4x64.Reduces [1] S4)]
  show Ideal.ofBits .f32 0x00000000#32 + _ = _
  rw [Ideal.ofBits_zero_f32, zero_add]
  refine Finset.sum_congr rfl fun d _ => ?_
  have e : (by decide : S4x64.Reduces [1] S4).lift (ix1 k) d = ix2 k d :=
    funext fun a => Fin.ext (by match a with | ⟨0, _⟩ => rfl | ⟨1, _⟩ => rfl)
  rw [e]
  exact depadded_apply acc s t k d

variable (m : (ℓ : Loc nD τ sig) → Buf (Elt Ideal) ℓ)

/-- The accumulator array after the launch, as a vector of 256 extended reals. -/
abbrev accArr (c : Dev nD) : FVec Ideal S256 .f32 := (dats m 0 c).arrAt 2 cfg0.N

theorem accArr_apply (c : Dev nD) (f : Fin 256) : accArr m c (ix1 f) = ∑ p ∈ Finset.range 256, part m c p f :=
  final_apply m c f

/-- The accumulator array's entry for feature (k, d) is the sum over the padded grid. -/
theorem acc_eq_gridSum (c : Dev nD) (k : Fin 4) (d : Fin 64) :
    accArr m c (ix1 (feat k d))
      = Cert.PairL1.gridSum (m ((c : Thread nD τ).loc main_arg0)) (m ((c : Thread nD τ).loc main_arg1)) k d := by
  rw [accArr_apply, Finset.sum_range]
  unfold Cert.PairL1.gridSum
  exact Finset.sum_congr rfl fun p _ => part_eq m c p k d

/-- For finite tables the kernel program's per-type sums are the all-pairs sums. -/
theorem allSumsK_eq (c : Dev nD)
    (hs : ∀ i, ∃ r : ℝ, m ((c : Thread nD τ).loc main_arg0) i = (r : EReal))
    (ht : ∀ i, ∃ r : ℝ, m ((c : Thread nD τ).loc main_arg1) i = (r : EReal)) :
    allSumsK (F := Ideal) (accArr m c) (m ((c : Thread nD τ).loc main_arg0)) (m ((c : Thread nD τ).loc main_arg1))
      = fun k : S4.Idx => Cert.PairL1.allPairs (m ((c : Thread nD τ).loc main_arg0)) (m ((c : Thread nD τ).loc main_arg1)) (k 0) := by
  funext k
  obtain ⟨k0, rfl⟩ : ∃ k0 : Fin 4, k = ix1 k0 := ⟨k 0, eq_ix1 k⟩
  show allSumsK (F := Ideal) _ _ _ (ix1 k0) = Cert.PairL1.allPairs _ _ k0
  rw [allSumsK_apply]
  simp only [acc_eq_gridSum m c]
  exact Cert.PairL1.depad _ _ hs ht k0

end Cert.PairL1.Ker

end
-- ==== Proof.KerMask.lean ====
/-
  Under the index precondition the kernel's range test passes on every anchor.  An index x with
  -1500 ≤ x < 1500, wrapped (1500 added when negative, which cannot overflow a 32-bit word), lies in
  [0, 1499]; so the and-reduction of the two compares is 1 at every anchor, the select keeps the gathered
  row, and the kernel's anchor sums are the reference's.
-/
import proofs.«404473_j75007308858097_3_alg».proof.Proof.KerHost
import proofs.«404473_j75007308858097_3_alg».proof.Proof.Spec
import Idealize.ShloMosaic.Lib.Affine
import Idealize.ShloMosaic.Lib.ValueIdx
import Idealize.ShloMosaic.PureOps.Reduce

noncomputable section

namespace Cert.PairL1.Ker

open Idealize.ShloMosaic Idealize.ShloMosaic.ValueIdx
open Cert.KernelIdeal Cert.KernelIdeal.Gen

/-- An and-fold that starts at 1 and meets only 1s ends at 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, h, _ => h
  | a :: l, _, h, hl =>
    foldl_andi_ones f l _ (IntOp.andi_eq_one.2 ⟨h, hl a (List.mem_cons_self ..)⟩) fun n hn => hl n (List.mem_cons_of_mem _ hn)

/-- The wrapped value of an index in [-1500, 1500) lies in [0, 1499], as signed 32-bit words. -/
theorem wrap_range (x : BitVec 32) (h : -1500 ≤ x.toInt ∧ x.toInt < 1500) :
    (0#32 : BitVec 32).toInt ≤ (Scalar.select (IntOp.cmpi .slt x 0#32) (IntOp.addi x 1500#32) x).toInt
      ∧ (Scalar.select (IntOp.cmpi .slt x 0#32) (IntOp.addi x 1500#32) x).toInt ≤ (1499#32 : BitVec 32).toInt := by
  have h0 : (0#32 : BitVec 32).toInt = 0 := by decide
  have h1499 : (1499#32 : BitVec 32).toInt = 1499 := by decide
  have h1500 : (1500#32 : BitVec 32).toInt = 1500 := by decide
  rw [h0, h1499]
  by_cases hneg : x.toInt < 0
  · have hc : IntOp.cmpi .slt x 0#32 = 1#1 := IntOp.cmpi_slt.2 (by rw [h0]; exact hneg)
    rw [hc, select_one]
    have hadd : (IntOp.addi x 1500#32).toInt = x.toInt + 1500 := by
      show (x + 1500#32).toInt = _
      rw [BitVec.toInt_add, h1500]
      exact Int.bmod_eq_of_le_mul_two (by norm_num; omega) (by norm_num; omega)
    rw [hadd]; omega
  · have hc : ¬IntOp.cmpi .slt x 0#32 = 1#1 := fun e => hneg (by have := IntOp.cmpi_slt.1 e; rwa [h0] at this)
    rw [eq_zero_of_ne_one hc, select_zero]
    omega

variable {F : FTy → Type} [FloatOps F]

/-- The range test is 1 at every anchor. -/
theorem inRange_col (idx : IVec S200 32) (h : ∀ b, -1500 ≤ (idx b).toInt ∧ (idx b).toInt < 1500) (b : S200.Idx) :
    inRange (col idx) b = 1#1 := by
  unfold inRange
  rw [Host.reduce_eq_foldl]
  refine foldl_andi_ones _ _ _ rfl ?_
  intro i _
  show IntOp.andi (IntOp.cmpi .sge (col idx i) 0#32) (IntOp.cmpi .sle (col idx i) 1499#32) = 1#1
  obtain ⟨k, hk⟩ : ∃ k : S200.Idx, col idx i
      = Scalar.select (IntOp.cmpi .slt (idx k) 0#32) (IntOp.addi (idx k) 1500#32) (idx k) := ⟨_, rfl⟩
  rw [hk]
  have hw := wrap_range (idx k) (h k)
  exact IntOp.andi_eq_one.2 ⟨IntOp.cmpi_sge.2 hw.1, IntOp.cmpi_sle.2 hw.2⟩

/-- So the kernel's masked take is the plain pick of rows. -/
theorem takeRows_eq (x : FVec F S1500x4x64 .f32) (idx : IVec S200 32)
    (h : ∀ b, -1500 ≤ (idx b).toInt ∧ (idx b).toInt < 1500) :
    takeRows x idx = Cert.PairL1.pick x idx := by
  funext j
  unfold takeRows
  show Scalar.select (broadcastInDim S200x4x64 ![0] bcast_S200_S200x4x64_0 (inRange (col idx)) j) _ _ = _
  obtain ⟨k, hk⟩ : ∃ k : S200.Idx, broadcastInDim S200x4x64 ![0] bcast_S200_S200x4x64_0 (inRange (col idx)) j
      = inRange (col idx) k := ⟨_, rfl⟩
  rw [hk, inRange_col idx h k, select_one]
  rfl

/-- And its anchor sums are the reference's. -/
theorem anchorSumsK_eq (s t : FVec F S1500x4x64 .f32) (ar ac : IVec S200 32)
    (har : ∀ b, -1500 ≤ (ar b).toInt ∧ (ar b).toInt < 1500) (hac : ∀ b, -1500 ≤ (ac b).toInt ∧ (ac b).toInt < 1500) :
    anchorSumsK s t ar ac = Cert.PairL1.anchorSums (F := F) s t ar ac := by
  unfold anchorSumsK
  rw [takeRows_eq s ar har, takeRows_eq t ac hac]
  rfl

end Cert.PairL1.Ker

end
-- ==== Proof.PreFacts.lean ====
/-
  What the precondition says of the inputs: every entry of both tables is a real number, and every anchor
  index lies in [-1500, 1500), the range in which indexing an axis of extent 1500 is defined.
-/
import proofs.«404473_j75007308858097_3_alg».proof.Pre_finite_inputs
import proofs.«404473_j75007308858097_3_alg».proof.Proof.Gen.Pre_finite_inputs
import Idealize.ShloMosaic.Lib.ReduceAll
import Idealize.ShloMosaic.Lib.StableHlo.Predicate
import Idealize.ShloMosaic.PureOps.Ideal.Laws
import Idealize.ShloMosaic.Lib.Affine
import Idealize.ShloMosaic.Lib.ValueIdx

noncomputable section

namespace Cert.PairL1

open Idealize.ShloMosaic

namespace PreFacts

/-- An extended real whose absolute value max x (-x) lies strictly below ⊤ is a real number: at ⊤ the
    maximum is ⊤ itself, at ⊥ it is -⊥ = ⊤, and ⊤ < ⊤ fails in both cases. The word 0x7F800000 reads as ⊤. -/
theorem real_of_abs_lt_top (x : Ideal .f32)
    (h : FloatOps.cmpf (F := Ideal) .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  induction x using EReal.rec with
  | bot => simp [Ideal.cmp] at h
  | coe r => exact ⟨r, rfl⟩
  | top => simp [Ideal.cmp] at h

/-- A 32-bit word that is at least the word of -1500 and below the word of 1500, both compared as signed
    integers, has its signed value in [-1500, 1500). -/
theorem range_of_cmp (x : BitVec 32) (h1 : IntOp.cmpi .sge x 4294965796#32 = 1#1)
    (h2 : IntOp.cmpi .slt x 1500#32 = 1#1) : -1500 ≤ x.toInt ∧ x.toInt < 1500 := by
  rw [IntOp.cmpi_sge] at h1
  rw [IntOp.cmpi_slt] at h2
  have e1 : (4294965796#32 : BitVec 32).toInt = -1500 := by decide
  have e2 : (1500#32 : BitVec 32).toInt = 1500 := by decide
  rw [e1] at h1
  rw [e2] at h2
  exact ⟨h1, h2⟩

end PreFacts

/-- The precondition is a conjunction of four universally quantified statements, each an and-reduction of
    an elementwise test to one bit. The bit being 1 gives each of the four reductions the value 1, hence the
    test holds at every index: for the tables that |x| < ⊤, for the anchors that -1500 ≤ v and v < 1500
    (a scalar broadcast reads the scalar at every index). -/
theorem of_pre [Cert.Pre_finite_inputs.Facts]
    (s t : FVec Ideal Cert.Pre_finite_inputs.S1500x4x64 .f32) (ar ac : IVec Cert.Pre_finite_inputs.S200 32)
    (h : Cert.Pre_finite_inputs.fn (F := Ideal) s t ar ac = fun _ => 1#1) :
    (∀ i, ∃ r : ℝ, s i = (r : EReal)) ∧ (∀ i, ∃ r : ℝ, t i = (r : EReal))
      ∧ (∀ b, -1500 ≤ (ar b).toInt ∧ (ar b).toInt < 1500) ∧ (∀ b, -1500 ≤ (ac b).toInt ∧ (ac b).toInt < 1500) := by
  -- the scalar shape has exactly one index
  haveI : Subsingleton Cert.Pre_finite_inputs.S_.Idx := ⟨fun a b => funext fun d => d.elim0⟩
  have h0 := congrFun h Idealize.ShloMosaic.ValueIdx.ix0
  dsimp only [Cert.Pre_finite_inputs.fn, Cert.Pre_finite_inputs.fn_part1] at h0
  -- ((all |s| < ⊤ ∧ all |t| < ⊤) ∧ all ar in range) ∧ all ac in range
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun b => ?_, fun b => ?_⟩
  · exact PreFacts.real_of_abs_lt_top (s i) (Host.reduce_andi_all _ _ _ _ _ h1 i)
  · exact PreFacts.real_of_abs_lt_top (t i) (Host.reduce_andi_all _ _ _ _ _ h2 i)
  · obtain ⟨g1, g2⟩ := IntOp.andi_eq_one.1 (Host.reduce_andi_all _ _ _ _ _ h3 b)
    exact PreFacts.range_of_cmp (ar b) g1 g2
  · obtain ⟨g1, g2⟩ := IntOp.andi_eq_one.1 (Host.reduce_andi_all _ _ _ _ _ h4 b)
    exact PreFacts.range_of_cmp (ac b) g1 g2

end Cert.PairL1

end
-- ==== Proof.KerRun.lean ====
/-
  The kernel program's run, read as mathematics: under the precondition it ends with its result at the shared
  closing arithmetic of the anchor sums and the four all-pairs sums, its arguments unchanged.  The frame run
  gives the accumulator array and the closing lines' buffer; the precondition gives finite tables (so the
  zero rows' share cancels) and anchor indices in range (so the range test keeps every gathered row).
-/
import proofs.«404473_j75007308858097_3_alg».proof.Defs
import proofs.«404473_j75007308858097_3_alg».proof.Proof.KerValue
import proofs.«404473_j75007308858097_3_alg».proof.Proof.KerMask
import proofs.«404473_j75007308858097_3_alg».proof.Proof.PreFacts

noncomputable section

namespace Cert.PairL1.Ker

open Idealize.ShloMosaic Idealize.ShloMosaic.TcCoe Idealize.SL.Sem Idealize.ShloMosaic.ValueIdx
open Idealize.ShloMosaic.Pipeline (Dat)
open Cert.KernelIdeal Cert.KernelIdeal.Gen

/-- The program's table of weight words is the shared one. -/
theorem word_eq : ∀ x : Fin 4, lit0 x = Cert.PairL1.weightWord x := by decide

theorem weights_eq :
    (fun i => FloatOps.ofBits (F := Ideal) .f32 (lit0 (S4.rowMajor i))) = Cert.PairL1.typeWeights (F := Ideal) := by
  funext i
  unfold Cert.PairL1.typeWeights
  exact congrArg _ (word_eq _)

theorem run (m : (ℓ : Loc nD τ sig) → Buf (Elt Ideal) ℓ) (ρ : Dev nD → PrngReg) (hpre : Cert.Pre_KernelIdeal m) :
    θ_run defs (onTc (τ := τ) (main (F := Ideal))) ⟨m, fun _ => 0, ρ⟩ fun r => ∀ c : Dev nD,
      r.2.mem ((c.tc : Thread nD τ).loc main_v34)
          = Cert.PairL1.lossTail (F := Ideal) Cert.PairL1.typeWeights
              (Cert.PairL1.anchorSums (F := Ideal) (m ((c.tc : Thread nD τ).loc main_arg0)) (m ((c.tc : Thread nD τ).loc main_arg1))
                (m ((c.tc : Thread nD τ).loc main_arg2)) (m ((c.tc : Thread nD τ).loc main_arg3)))
              (fun k => Cert.PairL1.allPairs (m ((c.tc : Thread nD τ).loc main_arg0)) (m ((c.tc : Thread nD τ).loc main_arg1)) (k 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (run_main m ρ)
  obtain ⟨hs, ht, har, hac⟩ := Cert.PairL1.of_pre _ _ _ _ (hpre c)
  refine ⟨?_,
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c)⟩
  refine ((h c).2 main_v34 (Pipeline.mem_restRefs_of main_v34 (by decide) (by decide))).trans ?_
  rw [tail_eq m c, anchorSumsK_eq _ _ _ _ har hac, allSumsK_eq m c hs ht, weights_eq]

end Cert.PairL1.Ker

end
-- ==== Proof.RefRun.lean ====
/-
  The reference program's run, read as mathematics: it ends with its result at the shared closing arithmetic
  of the anchor sums and the four all-pairs sums, its arguments unchanged.
-/
import proofs.«404473_j75007308858097_3_alg».proof.ReferenceIdeal
import proofs.«404473_j75007308858097_3_alg».proof.Proof.Gen.ReferenceIdeal
import proofs.«404473_j75007308858097_3_alg».proof.Proof.Spec
import Idealize.ShloMosaic.Lib.StableHlo.Run
import Idealize.ShloMosaic.Lib.StableHlo.Predicate
import Idealize.ShloMosaic.Lib.Pipeline.Value
import Idealize.ShloMosaic.Lib.ValueIdx
import Idealize.ShloMosaic.PureOps.Ideal.Laws
import Mathlib.Algebra.BigOperators.Group.Finset.Basic
import Mathlib.Algebra.BigOperators.Fin

noncomputable section

namespace Cert.PairL1.Ref

open Cert.ReferenceIdeal Cert.ReferenceIdeal.Gen Idealize.ShloMosaic Idealize.ShloMosaic.TcCoe Idealize.SL.Sem
open Idealize.ShloMosaic.StableHlo

section Line

variable {F : FTy → Type} [FloatOps F]

/-- The program's 95 host operations, in order. -/
abbrev ops : List (HloOp τ sig (Elt F)) :=
  [ StableHlo.nullary main_cst (fun i => FloatOps.ofBits .f32 (lit0 (S4.rowMajor i))),
    StableHlo.nullary main_c (constantI S_ 32 0#32),
    StableHlo.unary main_c main_v0 (broadcastInDim S200 ![] bcast_S_S200 : (⟨S_, .i32⟩ : BufTy).Contents (Elt F) → (⟨S200, .i32⟩ : BufTy).Contents (Elt F)),
    StableHlo.binary main_arg2 main_v0 main_v1 (cmpi .slt : (⟨S200, .i32⟩ : BufTy).Contents (Elt F) → (⟨S200, .i32⟩ : BufTy).Contents (Elt F) → (⟨S200, .i1⟩ : BufTy).Contents (Elt F)),
    StableHlo.nullary main_c_0 (constantI S_ 32 1500#32),
    StableHlo.unary main_c_0 main_v2 (broadcastInDim S200 ![] bcast_S_S200 : (⟨S_, .i32⟩ : BufTy).Contents (Elt F) → (⟨S200, .i32⟩ : BufTy).Contents (Elt F)),
    StableHlo.binary main_arg2 main_v2 main_v3 (addi : (⟨S200, .i32⟩ : BufTy).Contents (Elt F) → (⟨S200, .i32⟩ : BufTy).Contents (Elt F) → (⟨S200, .i32⟩ : BufTy).Contents (Elt F)),
    StableHlo.ternary main_v1 main_v3 main_arg2 main_v4 (select : (⟨S200, .i1⟩ : BufTy).Contents (Elt F) → (⟨S200, .i32⟩ : BufTy).Contents (Elt F) → (⟨S200, .i32⟩ : BufTy).Contents (Elt F) → (⟨S200, .i32⟩ : BufTy).Contents (Elt F)),
    StableHlo.unary main_v4 main_v5 (broadcastInDim S200x1 ![0] bcast_S200_S200x1_0 : (⟨S200, .i32⟩ : BufTy).Contents (Elt F) → (⟨S200x1, .i32⟩ : BufTy).Contents (Elt F)),
    StableHlo.binary main_arg0 main_v5 main_v6 ((fun x i => Host.gather gather_S1500x4x64_S200x1_S200x4x64_12_0_n_n_0_1_1464 x i) : (⟨S1500x4x64, .f32⟩ : BufTy).Contents (Elt F) → (⟨S200x1, .i32⟩ : BufTy).Contents (Elt F) → (⟨S200x4x64, .f32⟩ : BufTy).Contents (Elt F)),
    StableHlo.nullary main_c_1 (constantI S_ 32 0#32),
    StableHlo.unary main_c_1 main_v7 (broadcastInDim S200 ![] bcast_S_S200 : (⟨S_, .i32⟩ : BufTy).Contents (Elt F) → (⟨S200, .i32⟩ : BufTy).Contents (Elt F)),
    StableHlo.binary main_arg3 main_v7 main_v8 (cmpi .slt : (⟨S200, .i32⟩ : BufTy).Contents (Elt F) → (⟨S200, .i32⟩ : BufTy).Contents (Elt F) → (⟨S200, .i1⟩ : BufTy).Contents (Elt F)),
    StableHlo.nullary main_c_2 (constantI S_ 32 1500#32),
    StableHlo.unary main_c_2 main_v9 (broadcastInDim S200 ![] bcast_S_S200 : (⟨S_, .i32⟩ : BufTy).Contents (Elt F) → (⟨S200, .i32⟩ : BufTy).Contents (Elt F)),
    StableHlo.binary main_arg3 main_v9 main_v10 (addi : (⟨S200, .i32⟩ : BufTy).Contents (Elt F) → (⟨S200, .i32⟩ : BufTy).Contents (Elt F) → (⟨S200, .i32⟩ : BufTy).Contents (Elt F)),
    StableHlo.ternary main_v8 main_v10 main_arg3 main_v11 (select : (⟨S200, .i1⟩ : BufTy).Contents (Elt F) → (⟨S200, .i32⟩ : BufTy).Contents (Elt F) → (⟨S200, .i32⟩ : BufTy).Contents (Elt F) → (⟨S200, .i32⟩ : BufTy).Contents (Elt F)),
    StableHlo.unary main_v11 main_v12 (broadcastInDim S200x1 ![0] bcast_S200_S200x1_0 : (⟨S200, .i32⟩ : BufTy).Contents (Elt F) → (⟨S200x1, .i32⟩ : BufTy).Contents (Elt F)),
    StableHlo.binary main_arg1 main_v12 main_v13 ((fun x i => Host.gather gather_S1500x4x64_S200x1_S200x4x64_12_0_n_n_0_1_1464 x i) : (⟨S1500x4x64, .f32⟩ : BufTy).Contents (Elt F) → (⟨S200x1, .i32⟩ : BufTy).Contents (Elt F) → (⟨S200x4x64, .f32⟩ : BufTy).Contents (Elt F)),
    StableHlo.binary main_v6 main_v13 main_v14 (subf : (⟨S200x4x64, .f32⟩ : BufTy).Contents (Elt F) → (⟨S200x4x64, .f32⟩ : BufTy).Contents (Elt F) → (⟨S200x4x64, .f32⟩ : BufTy).Contents (Elt F)),
    StableHlo.unary main_v14 main_v15 (Host.absf : (⟨S200x4x64, .f32⟩ : BufTy).Contents (Elt F) → (⟨S200x4x64, .f32⟩ : BufTy).Contents (Elt F)),
    StableHlo.nullary main_cst_3 (constant S_ .f32 0x00000000#32),
    StableHlo.binary main_v15 main_cst_3 main_v16 ((fun x v => Host.reduceAdd x v reducesTo_S200x4x64_S4_d0_2 h_S_) : (⟨S200x4x64, .f32⟩ : BufTy).Contents (Elt F) → (⟨S_, .f32⟩ : BufTy).Contents (Elt F) → (⟨S4, .f32⟩ : BufTy).Contents (Elt F)),
    StableHlo.unary main_arg0 main_v17 ((extractStridedSlice S1500x1x64 ![0, 0, 0] · slices_S1500x4x64_S1500x1x64_0_0_0) : (⟨S1500x4x64, .f32⟩ : BufTy).Contents (Elt F) → (⟨S1500x1x64, .f32⟩ : BufTy).Contents (Elt F)),
    StableHlo.reshape main_v17 main_v18 rfl shapeCasts_S1500x1x64_S1500x64,
    StableHlo.unary main_v18 main_v19 (broadcastInDim S1500x1x64 ![0, 2] bcast_S1500x64_S1500x1x64_0_2 : (⟨S1500x64, .f32⟩ : BufTy).Contents (Elt F) → (⟨S1500x1x64, .f32⟩ : BufTy).Contents (Elt F)),
    StableHlo.unary main_arg1 main_v20 ((extractStridedSlice S1500x1x64 ![0, 0, 0] · slices_S1500x4x64_S1500x1x64_0_0_0) : (⟨S1500x4x64, .f32⟩ : BufTy).Contents (Elt F) → (⟨S1500x1x64, .f32⟩ : BufTy).Contents (Elt F)),
    StableHlo.reshape main_v20 main_v21 rfl shapeCasts_S1500x1x64_S1500x64,
    StableHlo.unary main_v21 main_v22 (broadcastInDim S1x1500x64 ![1, 2] bcast_S1500x64_S1x1500x64_1_2 : (⟨S1500x64, .f32⟩ : BufTy).Contents (Elt F) → (⟨S1x1500x64, .f32⟩ : BufTy).Contents (Elt F)),
    StableHlo.unary main_v19 main_v23 (broadcastInDim S1500x1500x64 ![0, 1, 2] bcast_S1500x1x64_S1500x1500x64_0_1_2 : (⟨S1500x1x64, .f32⟩ : BufTy).Contents (Elt F) → (⟨S1500x1500x64, .f32⟩ : BufTy).Contents (Elt F)),
    StableHlo.unary main_v22 main_v24 (broadcastInDim S1500x1500x64 ![0, 1, 2] bcast_S1x1500x64_S1500x1500x64_0_1_2 : (⟨S1x1500x64, .f32⟩ : BufTy).Contents (Elt F) → (⟨S1500x1500x64, .f32⟩ : BufTy).Contents (Elt F)),
    StableHlo.binary main_v23 main_v24 main_v25 (subf : (⟨S1500x1500x64, .f32⟩ : BufTy).Contents (Elt F) → (⟨S1500x1500x64, .f32⟩ : BufTy).Contents (Elt F) → (⟨S1500x1500x64, .f32⟩ : BufTy).Contents (Elt F)),
    StableHlo.unary main_v25 main_v26 (Host.absf : (⟨S1500x1500x64, .f32⟩ : BufTy).Contents (Elt F) → (⟨S1500x1500x64, .f32⟩ : BufTy).Contents (Elt F)),
    StableHlo.nullary main_cst_4 (constant S_ .f32 0x00000000#32),
    StableHlo.binary main_v26 main_cst_4 main_v27 ((fun x v => Host.reduceAdd x v reducesTo_S1500x1500x64_S_d0_1_2 h_S_) : (⟨S1500x1500x64, .f32⟩ : BufTy).Contents (Elt F) → (⟨S_, .f32⟩ : BufTy).Contents (Elt F) → (⟨S_, .f32⟩ : BufTy).Contents (Elt F)),
    StableHlo.unary main_arg0 main_v28 ((extractStridedSlice S1500x1x64 ![0, 1, 0] · slices_S1500x4x64_S1500x1x64_0_1_0) : (⟨S1500x4x64, .f32⟩ : BufTy).Contents (Elt F) → (⟨S1500x1x64, .f32⟩ : BufTy).Contents (Elt F)),
    StableHlo.reshape main_v28 main_v29 rfl shapeCasts_S1500x1x64_S1500x64,
    StableHlo.unary main_v29 main_v30 (broadcastInDim S1500x1x64 ![0, 2] bcast_S1500x64_S1500x1x64_0_2 : (⟨S1500x64, .f32⟩ : BufTy).Contents (Elt F) → (⟨S1500x1x64, .f32⟩ : BufTy).Contents (Elt F)),
    StableHlo.unary main_arg1 main_v31 ((extractStridedSlice S1500x1x64 ![0, 1, 0] · slices_S1500x4x64_S1500x1x64_0_1_0) : (⟨S1500x4x64, .f32⟩ : BufTy).Contents (Elt F) → (⟨S1500x1x64, .f32⟩ : BufTy).Contents (Elt F)),
    StableHlo.reshape main_v31 main_v32 rfl shapeCasts_S1500x1x64_S1500x64,
    StableHlo.unary main_v32 main_v33 (broadcastInDim S1x1500x64 ![1, 2] bcast_S1500x64_S1x1500x64_1_2 : (⟨S1500x64, .f32⟩ : BufTy).Contents (Elt F) → (⟨S1x1500x64, .f32⟩ : BufTy).Contents (Elt F)),
    StableHlo.unary main_v30 main_v34 (broadcastInDim S1500x1500x64 ![0, 1, 2] bcast_S1500x1x64_S1500x1500x64_0_1_2 : (⟨S1500x1x64, .f32⟩ : BufTy).Contents (Elt F) → (⟨S1500x1500x64, .f32⟩ : BufTy).Contents (Elt F)),
    StableHlo.unary main_v33 main_v35 (broadcastInDim S1500x1500x64 ![0, 1, 2] bcast_S1x1500x64_S1500x1500x64_0_1_2 : (⟨S1x1500x64, .f32⟩ : BufTy).Contents (Elt F) → (⟨S1500x1500x64, .f32⟩ : BufTy).Contents (Elt F)),
    StableHlo.binary main_v34 main_v35 main_v36 (subf : (⟨S1500x1500x64, .f32⟩ : BufTy).Contents (Elt F) → (⟨S1500x1500x64, .f32⟩ : BufTy).Contents (Elt F) → (⟨S1500x1500x64, .f32⟩ : BufTy).Contents (Elt F)),
    StableHlo.unary main_v36 main_v37 (Host.absf : (⟨S1500x1500x64, .f32⟩ : BufTy).Contents (Elt F) → (⟨S1500x1500x64, .f32⟩ : BufTy).Contents (Elt F)),
    StableHlo.nullary main_cst_5 (constant S_ .f32 0x00000000#32),
    StableHlo.binary main_v37 main_cst_5 main_v38 ((fun x v => Host.reduceAdd x v reducesTo_S1500x1500x64_S_d0_1_2 h_S_) : (⟨S1500x1500x64, .f32⟩ : BufTy).Contents (Elt F) → (⟨S_, .f32⟩ : BufTy).Contents (Elt F) → (⟨S_, .f32⟩ : BufTy).Contents (Elt F)),
    StableHlo.unary main_arg0 main_v39 ((extractStridedSlice S1500x1x64 ![0, 2, 0] · slices_S1500x4x64_S1500x1x64_0_2_0) : (⟨S1500x4x64, .f32⟩ : BufTy).Contents (Elt F) → (⟨S1500x1x64, .f32⟩ : BufTy).Contents (Elt F)),
    StableHlo.reshape main_v39 main_v40 rfl shapeCasts_S1500x1x64_S1500x64,
    StableHlo.unary main_v40 main_v41 (broadcastInDim S1500x1x64 ![0, 2] bcast_S1500x64_S1500x1x64_0_2 : (⟨S1500x64, .f32⟩ : BufTy).Contents (Elt F) → (⟨S1500x1x64, .f32⟩ : BufTy).Contents (Elt F)),
    StableHlo.unary main_arg1 main_v42 ((extractStridedSlice S1500x1x64 ![0, 2, 0] · slices_S1500x4x64_S1500x1x64_0_2_0) : (⟨S1500x4x64, .f32⟩ : BufTy).Contents (Elt F) → (⟨S1500x1x64, .f32⟩ : BufTy).Contents (Elt F)),
    StableHlo.reshape main_v42 main_v43 rfl shapeCasts_S1500x1x64_S1500x64,
    StableHlo.unary main_v43 main_v44 (broadcastInDim S1x1500x64 ![1, 2] bcast_S1500x64_S1x1500x64_1_2 : (⟨S1500x64, .f32⟩ : BufTy).Contents (Elt F) → (⟨S1x1500x64, .f32⟩ : BufTy).Contents (Elt F)),
    StableHlo.unary main_v41 main_v45 (broadcastInDim S1500x1500x64 ![0, 1, 2] bcast_S1500x1x64_S1500x1500x64_0_1_2 : (⟨S1500x1x64, .f32⟩ : BufTy).Contents (Elt F) → (⟨S1500x1500x64, .f32⟩ : BufTy).Contents (Elt F)),
    StableHlo.unary main_v44 main_v46 (broadcastInDim S1500x1500x64 ![0, 1, 2] bcast_S1x1500x64_S1500x1500x64_0_1_2 : (⟨S1x1500x64, .f32⟩ : BufTy).Contents (Elt F) → (⟨S1500x1500x64, .f32⟩ : BufTy).Contents (Elt F)),
    StableHlo.binary main_v45 main_v46 main_v47 (subf : (⟨S1500x1500x64, .f32⟩ : BufTy).Contents (Elt F) → (⟨S1500x1500x64, .f32⟩ : BufTy).Contents (Elt F) → (⟨S1500x1500x64, .f32⟩ : BufTy).Contents (Elt F)),
    StableHlo.unary main_v47 main_v48 (Host.absf : (⟨S1500x1500x64, .f32⟩ : BufTy).Contents (Elt F) → (⟨S1500x1500x64, .f32⟩ : BufTy).Contents (Elt F)),
    StableHlo.nullary main_cst_6 (constant S_ .f32 0x00000000#32),
    StableHlo.binary main_v48 main_cst_6 main_v49 ((fun x v => Host.reduceAdd x v reducesTo_S1500x1500x64_S_d0_1_2 h_S_) : (⟨S1500x1500x64, .f32⟩ : BufTy).Contents (Elt F) → (⟨S_, .f32⟩ : BufTy).Contents (Elt F) → (⟨S_, .f32⟩ : BufTy).Contents (Elt F)),
    StableHlo.unary main_arg0 main_v50 ((extractStridedSlice S1500x1x64 ![0, 3, 0] · slices_S1500x4x64_S1500x1x64_0_3_0) : (⟨S1500x4x64, .f32⟩ : BufTy).Contents (Elt F) → (⟨S1500x1x64, .f32⟩ : BufTy).Contents (Elt F)),
    StableHlo.reshape main_v50 main_v51 rfl shapeCasts_S1500x1x64_S1500x64,
    StableHlo.unary main_v51 main_v52 (broadcastInDim S1500x1x64 ![0, 2] bcast_S1500x64_S1500x1x64_0_2 : (⟨S1500x64, .f32⟩ : BufTy).Contents (Elt F) → (⟨S1500x1x64, .f32⟩ : BufTy).Contents (Elt F)),
    StableHlo.unary main_arg1 main_v53 ((extractStridedSlice S1500x1x64 ![0, 3, 0] · slices_S1500x4x64_S1500x1x64_0_3_0) : (⟨S1500x4x64, .f32⟩ : BufTy).Contents (Elt F) → (⟨S1500x1x64, .f32⟩ : BufTy).Contents (Elt F)),
    StableHlo.reshape main_v53 main_v54 rfl shapeCasts_S1500x1x64_S1500x64,
    StableHlo.unary main_v54 main_v55 (broadcastInDim S1x1500x64 ![1, 2] bcast_S1500x64_S1x1500x64_1_2 : (⟨S1500x64, .f32⟩ : BufTy).Contents (Elt F) → (⟨S1x1500x64, .f32⟩ : BufTy).Contents (Elt F)),
    StableHlo.unary main_v52 main_v56 (broadcastInDim S1500x1500x64 ![0, 1, 2] bcast_S1500x1x64_S1500x1500x64_0_1_2 : (⟨S1500x1x64, .f32⟩ : BufTy).Contents (Elt F) → (⟨S1500x1500x64, .f32⟩ : BufTy).Contents (Elt F)),
    StableHlo.unary main_v55 main_v57 (broadcastInDim S1500x1500x64 ![0, 1, 2] bcast_S1x1500x64_S1500x1500x64_0_1_2 : (⟨S1x1500x64, .f32⟩ : BufTy).Contents (Elt F) → (⟨S1500x1500x64, .f32⟩ : BufTy).Contents (Elt F)),
    StableHlo.binary main_v56 main_v57 main_v58 (subf : (⟨S1500x1500x64, .f32⟩ : BufTy).Contents (Elt F) → (⟨S1500x1500x64, .f32⟩ : BufTy).Contents (Elt F) → (⟨S1500x1500x64, .f32⟩ : BufTy).Contents (Elt F)),
    StableHlo.unary main_v58 main_v59 (Host.absf : (⟨S1500x1500x64, .f32⟩ : BufTy).Contents (Elt F) → (⟨S1500x1500x64, .f32⟩ : BufTy).Contents (Elt F)),
    StableHlo.nullary main_cst_7 (constant S_ .f32 0x00000000#32),
    StableHlo.binary main_v59 main_cst_7 main_v60 ((fun x v => Host.reduceAdd x v reducesTo_S1500x1500x64_S_d0_1_2 h_S_) : (⟨S1500x1500x64, .f32⟩ : BufTy).Contents (Elt F) → (⟨S_, .f32⟩ : BufTy).Contents (Elt F) → (⟨S_, .f32⟩ : BufTy).Contents (Elt F)),
    StableHlo.unary main_v27 main_v61 (broadcastInDim S1 ![] bcast_S_S1 : (⟨S_, .f32⟩ : BufTy).Contents (Elt F) → (⟨S1, .f32⟩ : BufTy).Contents (Elt F)),
    StableHlo.unary main_v38 main_v62 (broadcastInDim S1 ![] bcast_S_S1 : (⟨S_, .f32⟩ : BufTy).Contents (Elt F) → (⟨S1, .f32⟩ : BufTy).Contents (Elt F)),
    StableHlo.unary main_v49 main_v63 (broadcastInDim S1 ![] bcast_S_S1 : (⟨S_, .f32⟩ : BufTy).Contents (Elt F) → (⟨S1, .f32⟩ : BufTy).Contents (Elt F)),
    StableHlo.unary main_v60 main_v64 (broadcastInDim S1 ![] bcast_S_S1 : (⟨S_, .f32⟩ : BufTy).Contents (Elt F) → (⟨S1, .f32⟩ : BufTy).Contents (Elt F)),
    StableHlo.nary ![main_v61, main_v62, main_v63, main_v64] main_v65 (fun u => concatenate S4 0 [⟨S1, u 0⟩, ⟨S1, u 1⟩, ⟨S1, u 2⟩, ⟨S1, u 3⟩] concatenates_S1_S1_S1_S1_S4_d0),
    StableHlo.binary main_v65 main_v16 main_v66 (subf : (⟨S4, .f32⟩ : BufTy).Contents (Elt F) → (⟨S4, .f32⟩ : BufTy).Contents (Elt F) → (⟨S4, .f32⟩ : BufTy).Contents (Elt F)),
    StableHlo.nullary main_cst_8 (constant S_ .f32 0x4A095120#32),
    StableHlo.unary main_cst_8 main_v67 (broadcastInDim S4 ![] bcast_S_S4 : (⟨S_, .f32⟩ : BufTy).Contents (Elt F) → (⟨S4, .f32⟩ : BufTy).Contents (Elt F)),
    StableHlo.binary main_v16 main_v67 main_v68 (mulf : (⟨S4, .f32⟩ : BufTy).Contents (Elt F) → (⟨S4, .f32⟩ : BufTy).Contents (Elt F) → (⟨S4, .f32⟩ : BufTy).Contents (Elt F)),
    StableHlo.nullary main_cst_9 (constant S_ .f32 0x4ACDF9B0#32),
    StableHlo.unary main_cst_9 main_v69 (broadcastInDim S4 ![] bcast_S_S4 : (⟨S_, .f32⟩ : BufTy).Contents (Elt F) → (⟨S4, .f32⟩ : BufTy).Contents (Elt F)),
    StableHlo.binary main_v69 main_v66 main_v70 (subf : (⟨S4, .f32⟩ : BufTy).Contents (Elt F) → (⟨S4, .f32⟩ : BufTy).Contents (Elt F) → (⟨S4, .f32⟩ : BufTy).Contents (Elt F)),
    StableHlo.nullary main_cst_10 (constant S_ .f32 0x43480000#32),
    StableHlo.unary main_cst_10 main_v71 (broadcastInDim S4 ![] bcast_S_S4 : (⟨S_, .f32⟩ : BufTy).Contents (Elt F) → (⟨S4, .f32⟩ : BufTy).Contents (Elt F)),
    StableHlo.binary main_v70 main_v71 main_v72 (mulf : (⟨S4, .f32⟩ : BufTy).Contents (Elt F) → (⟨S4, .f32⟩ : BufTy).Contents (Elt F) → (⟨S4, .f32⟩ : BufTy).Contents (Elt F)),
    StableHlo.binary main_v68 main_v72 main_v73 (addf : (⟨S4, .f32⟩ : BufTy).Contents (Elt F) → (⟨S4, .f32⟩ : BufTy).Contents (Elt F) → (⟨S4, .f32⟩ : BufTy).Contents (Elt F)),
    StableHlo.binary main_cst main_v73 main_v74 (mulf : (⟨S4, .f32⟩ : BufTy).Contents (Elt F) → (⟨S4, .f32⟩ : BufTy).Contents (Elt F) → (⟨S4, .f32⟩ : BufTy).Contents (Elt F)),
    StableHlo.nullary main_cst_11 (constant S_ .f32 0x42800000#32),
    StableHlo.unary main_cst_11 main_v75 (broadcastInDim S4 ![] bcast_S_S4 : (⟨S_, .f32⟩ : BufTy).Contents (Elt F) → (⟨S4, .f32⟩ : BufTy).Contents (Elt F)),
    StableHlo.binary main_v74 main_v75 main_v76 (Host.divf : (⟨S4, .f32⟩ : BufTy).Contents (Elt F) → (⟨S4, .f32⟩ : BufTy).Contents (Elt F) → (⟨S4, .f32⟩ : BufTy).Contents (Elt F)),
    StableHlo.nullary main_cst_12 (constant S_ .f32 0x00000000#32),
    StableHlo.binary main_v76 main_cst_12 main_v77 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    StableHlo.nullary main_cst_13 (constant S_ .f32 0x4A095440#32),
    StableHlo.binary main_v77 main_cst_13 main_v78 (Host.divf : (⟨S_, .f32⟩ : BufTy).Contents (Elt F) → (⟨S_, .f32⟩ : BufTy).Contents (Elt F) → (⟨S_, .f32⟩ : BufTy).Contents (Elt F)) ]

set_option maxRecDepth 16384 in
set_option maxHeartbeats 4000000 in
/-- The program is the straight line of those operations. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., binary_bufs_sub .., unary_bufs_sub .., reshape_bufs_sub .., unary_bufs_sub .., unary_bufs_sub .., reshape_bufs_sub .., unary_bufs_sub .., unary_bufs_sub .., unary_bufs_sub .., binary_bufs_sub .., unary_bufs_sub .., nullary_bufs_sub .., binary_bufs_sub .., unary_bufs_sub .., reshape_bufs_sub .., unary_bufs_sub .., unary_bufs_sub .., reshape_bufs_sub .., unary_bufs_sub .., unary_bufs_sub .., unary_bufs_sub .., binary_bufs_sub .., unary_bufs_sub .., nullary_bufs_sub .., binary_bufs_sub .., unary_bufs_sub .., reshape_bufs_sub .., unary_bufs_sub .., unary_bufs_sub .., reshape_bufs_sub .., unary_bufs_sub .., unary_bufs_sub .., unary_bufs_sub .., binary_bufs_sub .., unary_bufs_sub .., nullary_bufs_sub .., binary_bufs_sub .., unary_bufs_sub .., reshape_bufs_sub .., unary_bufs_sub .., unary_bufs_sub .., reshape_bufs_sub .., unary_bufs_sub .., unary_bufs_sub .., unary_bufs_sub .., binary_bufs_sub .., unary_bufs_sub .., nullary_bufs_sub .., binary_bufs_sub .., unary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., binary_bufs_sub .., nullary_bufs_sub .., binary_bufs_sub ..⟩

end Line

section Out

variable {F : FTy → Type} [FloatOps F]

/-- One all-pairs scalar as the program computes it: the slice of each table at the offset, its unit axis dropped,
    the first spread along the second axis and the second along the first, their difference's absolute value
    summed over every axis from zero. -/
def pairScal (off : Fin 3 → Nat) (h : S1500x4x64.Slices off S1500x1x64) (s t : FVec F S1500x4x64 .f32) : FVec F S_ .f32 :=
  Host.reduceAdd
    (Host.absf (subf
      (broadcastInDim S1500x1500x64 ![0, 1, 2] bcast_S1500x1x64_S1500x1500x64_0_1_2
        (broadcastInDim S1500x1x64 ![0, 2] bcast_S1500x64_S1500x1x64_0_2
          (shapeCast S1500x64 (extractStridedSlice S1500x1x64 off s h) shapeCasts_S1500x1x64_S1500x64)))
      (broadcastInDim S1500x1500x64 ![0, 1, 2] bcast_S1x1500x64_S1500x1500x64_0_1_2
        (broadcastInDim S1x1500x64 ![1, 2] bcast_S1500x64_S1x1500x64_1_2
          (shapeCast S1500x64 (extractStridedSlice S1500x1x64 off t h) shapeCasts_S1500x1x64_S1500x64)))))
    (constant S_ .f32 0x00000000#32) reducesTo_S1500x1500x64_S_d0_1_2 h_S_

/-- The four all-pairs scalars, each made a one-element vector, laid end to end. -/
def allVec (s t : FVec F S1500x4x64 .f32) : FVec F S4 .f32 :=
  concatenate S4 0
    [⟨S1, broadcastInDim S1 ![] bcast_S_S1 (pairScal ![0, 0, 0] slices_S1500x4x64_S1500x1x64_0_0_0 s t)⟩,
     ⟨S1, broadcastInDim S1 ![] bcast_S_S1 (pairScal ![0, 1, 0] slices_S1500x4x64_S1500x1x64_0_1_0 s t)⟩,
     ⟨S1, broadcastInDim S1 ![] bcast_S_S1 (pairScal ![0, 2, 0] slices_S1500x4x64_S1500x1x64_0_2_0 s t)⟩,
     ⟨S1, broadcastInDim S1 ![] bcast_S_S1 (pairScal ![0, 3, 0] slices_S1500x4x64_S1500x1x64_0_3_0 s t)⟩]
    concatenates_S1_S1_S1_S1_S4_d0

/-- The program's result as a term of its four arguments: the closing arithmetic at the program's own weight table,
    the anchor sums and the four all-pairs scalars. -/
def refOut (s t : FVec F S1500x4x64 .f32) (ar ac : IVec S200 32) : FVec F S_ .f32 :=
  Cert.PairL1.lossTail (fun i => FloatOps.ofBits .f32 (lit0 (S4.rowMajor i))) (Cert.PairL1.anchorSums s t ar ac) (allVec s t)

set_option maxRecDepth 16384 in
set_option maxHeartbeats 40000000 in
/-- Every weakly fair execution of the program ends with its result at that term and its arguments unchanged. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v78)
          = refOut (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v78).trans (by after_results; rfl),
      (h c main_arg0).trans (by after_results_simp),
      (h c main_arg1).trans (by after_results_simp),
      (h c main_arg2).trans (by after_results_simp),
      (h c main_arg3).trans (by after_results_simp)⟩)
    (run_seq scopedRefs_eq scopedSems_eq defs main (fun _ => ops) main_eq (fun _ => ops_sub) m ρ)

end Out

section Value

open Idealize.ShloMosaic.ValueIdx Idealize.ShloMosaic.StableHlo.Predicate
open scoped BigOperators

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A table's slice at relation type kk, its unit axis dropped: at (i, d) it is the table at (i, kk, d). -/
theorem slab_apply (kk : Nat) (hk : kk < 4) (h : S1500x4x64.Slices ![0, kk, 0] S1500x1x64) (x : FVec Ideal S1500x4x64 .f32)
    (i : Fin 1500) (d : Fin 64) :
    shapeCast S1500x64 (extractStridedSlice S1500x1x64 ![0, kk, 0] x h) shapeCasts_S1500x1x64_S1500x64 (ix2 i d)
      = x (ix3 i ⟨kk, hk⟩ d) := by
  refine (shapeCast_apply _ _ (ix2 i d) (ix3 i (0 : Fin 1) d) ?_).trans ?_
  · rw [Shape.rowMajor_val_three, Shape.rowMajor_val_two]
    show (i.val * 1 + 0) * 64 + d.val = i.val * 64 + d.val
    omega
  · refine extractStridedSlice_apply _ _ _ _ (ix3 i ⟨kk, hk⟩ d) fun a => ?_
    match a with
    | ⟨0, _⟩ => exact (Nat.zero_add _).symm
    | ⟨1, _⟩ => exact (Nat.add_zero _).symm
    | ⟨2, _⟩ => exact (Nat.zero_add _).symm

/-- The first operand of the difference, read at (i, j, d): the first table at (i, kk, d). -/
theorem left_apply (kk : Nat) (hk : kk < 4) (h : S1500x4x64.Slices ![0, kk, 0] S1500x1x64) (x : FVec Ideal S1500x4x64 .f32)
    (i j : Fin 1500) (d : Fin 64) :
    broadcastInDim S1500x1500x64 ![0, 1, 2] bcast_S1500x1x64_S1500x1500x64_0_1_2
        (broadcastInDim S1500x1x64 ![0, 2] bcast_S1500x64_S1500x1x64_0_2
          (shapeCast S1500x64 (extractStridedSlice S1500x1x64 ![0, kk, 0] x h) shapeCasts_S1500x1x64_S1500x64)) (ix3 i j d)
      = x (ix3 i ⟨kk, hk⟩ d) := by
  refine (broadcastInDim_apply _ _ _ (ix3 i j d) (ix3 i (0 : Fin 1) d) fun a => ?_).trans ?_
  · match a with
    | ⟨0, _⟩ => rfl
    | ⟨1, _⟩ => rfl
    | ⟨2, _⟩ => rfl
  refine (broadcastInDim_apply _ _ _ (ix3 i (0 : Fin 1) d) (ix2 i d) fun a => ?_).trans (slab_apply kk hk h x i d)
  match a with
  | ⟨0, _⟩ => rfl
  | ⟨1, _⟩ => rfl

/-- The second operand of the difference, read at (i, j, d): the second table at (j, kk, d). -/
theorem right_apply (kk : Nat) (hk : kk < 4) (h : S1500x4x64.Slices ![0, kk, 0] S1500x1x64) (x : FVec Ideal S1500x4x64 .f32)
    (i j : Fin 1500) (d : Fin 64) :
    broadcastInDim S1500x1500x64 ![0, 1, 2] bcast_S1x1500x64_S1500x1500x64_0_1_2
        (broadcastInDim S1x1500x64 ![1, 2] bcast_S1500x64_S1x1500x64_1_2
          (shapeCast S1500x64 (extractStridedSlice S1500x1x64 ![0, kk, 0] x h) shapeCasts_S1500x1x64_S1500x64)) (ix3 i j d)
      = x (ix3 j ⟨kk, hk⟩ d) := by
  refine (broadcastInDim_apply _ _ _ (ix3 i j d) (ix3 (0 : Fin 1) j d) fun a => ?_).trans ?_
  · match a with
    | ⟨0, _⟩ => rfl
    | ⟨1, _⟩ => rfl
    | ⟨2, _⟩ => rfl
  refine (broadcastInDim_apply _ _ _ (ix3 (0 : Fin 1) j d) (ix2 j d) fun a => ?_).trans (slab_apply kk hk h x j d)
  match a with
  | ⟨0, _⟩ => rfl
  | ⟨1, _⟩ => rfl

/-- The program's scalar for relation type kk is the all-pairs sum of that type. -/
theorem pairScal_eq (kk : Nat) (hk : kk < 4) (h : S1500x4x64.Slices ![0, kk, 0] S1500x1x64) (s t : FVec Ideal S1500x4x64 .f32)
    (j : S_.Idx) : pairScal ![0, kk, 0] h s t j = Cert.PairL1.allPairs s t ⟨kk, hk⟩ := by
  unfold pairScal Host.reduceAdd
  rw [Ideal.hostReduceAdd_def, Ideal.hostReduceAdd_total _ (fun b => b.elim0)]
  show Ideal.ofBits .f32 0x00000000#32 + _ = _
  rw [Ideal.ofBits_zero_f32, zero_add, sum_idx3]
  unfold Cert.PairL1.allPairs
  refine Finset.sum_congr rfl fun i _ => Finset.sum_congr rfl fun j' _ => Finset.sum_congr rfl fun d _ => ?_
  show max (_ - _) (-(_ - _)) = Cert.PairL1.eabs _
  rw [left_apply kk hk h s i j' d, right_apply kk hk h t i j' d]
  rfl

/-- Four one-element vectors laid end to end, read at position n: the n-th of them at its one index. -/
theorem concat4_apply {α : Type} (x0 x1 x2 x3 : S1.Idx → α) (h : Shape.Concatenates [S1, S1, S1, S1] S4 0) (n : Fin 4) :
    concatenate S4 0 [⟨S1, x0⟩, ⟨S1, x1⟩, ⟨S1, x2⟩, ⟨S1, x3⟩] h (ix1 n) = (![x0, x1, x2, x3] n) (ix1 0) := by
  match n with
  | ⟨0, _⟩ =>
    exact concatenate_apply_piece (t := S4) 0 [⟨S1, x0⟩, ⟨S1, x1⟩, ⟨S1, x2⟩, ⟨S1, x3⟩] h (ix1 ⟨0, by decide⟩) 0 (by show (0 : Nat) < 4; decide) S1 x0 rfl rfl 0 rfl
      (ix1 0) (fun b hb => absurd (Subsingleton.elim _ _) hb) rfl
  | ⟨1, _⟩ =>
    exact concatenate_apply_piece (t := S4) 0 [⟨S1, x0⟩, ⟨S1, x1⟩, ⟨S1, x2⟩, ⟨S1, x3⟩] h (ix1 ⟨1, by decide⟩) 1 (by show (1 : Nat) < 4; decide) S1 x1 rfl rfl 1 rfl
      (ix1 0) (fun b hb => absurd (Subsingleton.elim _ _) hb) rfl
  | ⟨2, _⟩ =>
    exact concatenate_apply_piece (t := S4) 0 [⟨S1, x0⟩, ⟨S1, x1⟩, ⟨S1, x2⟩, ⟨S1, x3⟩] h (ix1 ⟨2, by decide⟩) 2 (by show (2 : Nat) < 4; decide) S1 x2 rfl rfl 2 rfl
      (ix1 0) (fun b hb => absurd (Subsingleton.elim _ _) hb) rfl
  | ⟨3, _⟩ =>
    exact concatenate_apply_piece (t := S4) 0 [⟨S1, x0⟩, ⟨S1, x1⟩, ⟨S1, x2⟩, ⟨S1, x3⟩] h (ix1 ⟨3, by decide⟩) 3 (by show (3 : Nat) < 4; decide) S1 x3 rfl rfl 3 rfl
      (ix1 0) (fun b hb => absurd (Subsingleton.elim _ _) hb) rfl

/-- The four scalars laid end to end are, type by type, the all-pairs sums. -/
theorem allVec_eq (s t : FVec Ideal S1500x4x64 .f32) : allVec s t = fun k => Cert.PairL1.allPairs s t (k 0) := by
  funext k
  obtain ⟨k0, rfl⟩ : ∃ k0 : Fin 4, k = ix1 k0 := ⟨k 0, eq_ix1 k⟩
  unfold allVec
  rw [concat4_apply]
  match k0 with
  | ⟨0, _⟩ => exact (bcast_scalar bcast_S_S1 h_S_ _ _).trans (pairScal_eq 0 (by decide) _ s t _)
  | ⟨1, _⟩ => exact (bcast_scalar bcast_S_S1 h_S_ _ _).trans (pairScal_eq 1 (by decide) _ s t _)
  | ⟨2, _⟩ => exact (bcast_scalar bcast_S_S1 h_S_ _ _).trans (pairScal_eq 2 (by decide) _ s t _)
  | ⟨3, _⟩ => exact (bcast_scalar bcast_S_S1 h_S_ _ _).trans (pairScal_eq 3 (by decide) _ s t _)

/-- The program's weight table carries the four weight words. -/
theorem lit0_eq : Cert.ReferenceIdeal.lit0 = Cert.PairL1.weightWord := by
  funext i
  fin_cases i <;> rfl

/-- The program's result is the shared closing arithmetic of the anchor sums and the all-pairs sums. -/
theorem refOut_eq (s t : FVec Ideal S1500x4x64 .f32) (ar ac : IVec S200 32) :
    refOut s t ar ac
      = Cert.PairL1.lossTail (F := Ideal) Cert.PairL1.typeWeights (Cert.PairL1.anchorSums (F := Ideal) s t ar ac)
          (fun k => Cert.PairL1.allPairs s t (k 0)) := by
  unfold refOut
  rw [allVec_eq, lit0_eq]
  rfl

end Value

/-- Every weakly fair execution of the reference program ends with its result at the shared closing arithmetic of
    the anchor sums and the four all-pairs sums, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v78)
          = Cert.PairL1.lossTail (F := Ideal) Cert.PairL1.typeWeights
              (Cert.PairL1.anchorSums (F := Ideal) (m ((c.tc : Thread nD τ).loc main_arg0)) (m ((c.tc : Thread nD τ).loc main_arg1))
                (m ((c.tc : Thread nD τ).loc main_arg2)) (m ((c.tc : Thread nD τ).loc main_arg3)))
              (fun k => Cert.PairL1.allPairs (m ((c.tc : Thread nD τ).loc main_arg0)) (m ((c.tc : Thread nD τ).loc main_arg1)) (k 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (refOut_eq _ _ _ _), (h c).2⟩) (run_out m ρ)

end Cert.PairL1.Ref

end
-- ==== Proof.lean ====
/-
  Pairwise L1 alignment loss: the Pallas program against its jnp reference, over the extended reals.

  Both programs compute, for relation types k < 4,
      all k = ∑ i < 1500, ∑ j < 1500, ∑ d < 64, |s[i,k,d] - t[j,k,d]|        (all pairs)
      alm k = ∑ b < 200, ∑ d < 64, |s[rows b, k, d] - t[cols b, k, d]|          (anchor pairs)
  and then the same closing arithmetic
      (∑ₖ wₖ · (alm k · 2249800 + (6749400 − (all k − alm k)) · 200) / 64) / 2250000.
  The reference takes all k as one reduction per type.  The kernel pads both tables with 36 zero rows,
  accumulates |s_i − t_j| over a 16 x 16 grid of 96 x 96 row blocks into one 256-entry accumulator (reset at
  the first grid point, written back after the last), and subtracts the zero rows' share
  36 · ∑ᵢ|s_i| + 36 · ∑ⱼ|t_j| afterwards; for finite tables that is the same number.  The kernel takes its
  anchor rows with a range test (a row out of range becomes a filler word) where the reference's gather
  clamps; under the precondition that every anchor index lies in [-1500, 1500) — where indexing an axis of
  extent 1500 is defined — the test passes everywhere and the two anchor sums are one term.

  The word-level and the idealized kernel programs run by their generated frames; the reference's run is read
  by hand (Proof/RefRun.lean); the kernel's value is read off its frame run (Proof/Ker*.lean).
-/
import proofs.«404473_j75007308858097_3_alg».proof.Defs
import proofs.«404473_j75007308858097_3_alg».proof.Proof.Gen.Kernel
import proofs.«404473_j75007308858097_3_alg».proof.Proof.Gen.Kernel.Frame
import proofs.«404473_j75007308858097_3_alg».proof.Proof.Gen.KernelIdeal
import proofs.«404473_j75007308858097_3_alg».proof.Proof.Gen.KernelIdeal.Frame
import proofs.«404473_j75007308858097_3_alg».proof.Proof.Gen.ReferenceIdeal
import proofs.«404473_j75007308858097_3_alg».proof.Proof.Gen.Pre_finite_inputs
import proofs.«404473_j75007308858097_3_alg».proof.Proof.KerRun
import proofs.«404473_j75007308858097_3_alg».proof.Proof.RefRun

noncomputable section

namespace Cert.Proof

open Idealize.ShloMosaic Idealize.SL.Sem

/-- The word-level kernel program terminates without fault and keeps its arguments. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- And the reference: its run with the result dropped. -/
theorem frame_reference : Cert.frame_ReferenceIdeal := fun m ρ _ =>
  (θ_run Cert.ReferenceIdeal.defs _ _).mono (fun _ h c => (h c).2) (Cert.PairL1.Ref.run m ρ)

/-- From memories agreeing on the arguments both idealized programs end at the same loss value. -/
theorem algebraic : Cert.algebraic_KernelIdeal_ReferenceIdeal := by
  intro m ρ m' ρ' hpre hagree
  refine ⟨_, Cert.PairL1.Ker.run m ρ hpre, ?_⟩
  refine (θ_run Cert.ReferenceIdeal.defs _ _).mono (fun _ h c => ⟨(h c).1.trans ?_, (h c).2⟩) (Cert.PairL1.Ref.run m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
